-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x3 : Shape := ⟨2, ![1024, 3]⟩
abbrev S100000x1024 : Shape := ⟨2, ![100000, 1024]⟩
abbrev S2000x1024 : Shape := ⟨2, ![2000, 1024]⟩
abbrev S_ : Shape := ⟨0, ![]⟩
abbrev S1024x1 : Shape := ⟨2, ![1024, 1]⟩
abbrev S1024 : Shape := ⟨1, ![1024]⟩

class Facts : Prop where
  bcast_S_S100000x1024 : S_.BroadcastsInDim S100000x1024 (![] : Fin 0 → Fin S100000x1024.rank)
  reducesTo_S100000x1024_S_d0_1 : S100000x1024.ReducesTo [0, 1] S_
  h_S_ : 0 < S_.numel
  bcast_S_S2000x1024 : S_.BroadcastsInDim S2000x1024 (![] : Fin 0 → Fin S2000x1024.rank)
  reducesTo_S2000x1024_S_d0_1 : S2000x1024.ReducesTo [0, 1] S_
  slices_S1024x3_S1024x1_0_0 : S1024x3.Slices ![0, 0] S1024x1
  shapeCasts_S1024x1_S1024 : S1024x1.ShapeCasts S1024
  bcast_S_S1024 : S_.BroadcastsInDim S1024 (![] : Fin 0 → Fin S1024.rank)
  reducesTo_S1024_S_d0 : S1024.ReducesTo [0] S_
  slices_S1024x3_S1024x1_0_1 : S1024x3.Slices ![0, 1] S1024x1

variable [Facts]

def fn_part1 {F : FTy → Type} [FloatOps F] (main_arg0 : IVec S1024x3 32) (main_v8 : IVec S_ 1) (main_v17 : IVec S1024 1) : IVec S_ 1 :=
  let main_c_4 : IVec S_ 1 := constantI S_ 1 1#1
  let main_v18 : IVec S_ 1 := (fun x v => Host.reduce IntOp.andi x v reducesTo_S1024_S_d0 h_S_) main_v17 main_c_4
  let main_v19 : IVec S_ 1 := andi main_v8 main_v18
  let main_v20 : IVec S1024x1 32 := (extractStridedSlice S1024x1 ![0, 1] · slices_S1024x3_S1024x1_0_1) main_arg0
  let main_v21 : IVec S1024 32 := shapeCast S1024 main_v20 shapeCasts_S1024x1_S1024
  let main_c_5 : IVec S_ 32 := constantI S_ 32 4294965296#32
  let main_v22 : IVec S1024 32 := broadcastInDim S1024 ![] bcast_S_S1024 main_c_5
  let main_v23 : IVec S1024 1 := cmpi .sge main_v21 main_v22
  let main_v24 : IVec S1024x1 32 := (extractStridedSlice S1024x1 ![0, 1] · slices_S1024x3_S1024x1_0_1) main_arg0
  let main_v25 : IVec S1024 32 := shapeCast S1024 main_v24 shapeCasts_S1024x1_S1024
  let main_c_6 : IVec S_ 32 := constantI S_ 32 2000#32
  let main_v26 : IVec S1024 32 := broadcastInDim S1024 ![] bcast_S_S1024 main_c_6
  let main_v27 : IVec S1024 1 := cmpi .slt main_v25 main_v26
  let main_v28 : IVec S1024 1 := andi main_v23 main_v27
  let main_c_7 : IVec S_ 1 := constantI S_ 1 1#1
  let main_v29 : IVec S_ 1 := (fun x v => Host.reduce IntOp.andi x v reducesTo_S1024_S_d0 h_S_) main_v28 main_c_7
  let main_v30 : IVec S_ 1 := andi main_v19 main_v29
  main_v30

def fn {F : FTy → Type} [FloatOps F] (main_arg0 : IVec S1024x3 32) (main_arg1 : FVec F S100000x1024 .f32) (main_arg2 : FVec F S2000x1024 .f32) : IVec S_ 1 :=
  let main_v0 : FVec F S100000x1024 .f32 := Host.absf main_arg1
  let main_cst : FVec F S_ .f32 := constant S_ .f32 0x7F800000#32
  let main_v1 : FVec F S100000x1024 .f32 := broadcastInDim S100000x1024 ![] bcast_S_S100000x1024 main_cst
  let main_v2 : IVec S100000x1024 1 := cmpf .olt main_v0 main_v1
  let main_c : IVec S_ 1 := constantI S_ 1 1#1
  let main_v3 : IVec S_ 1 := (fun x v => Host.reduce IntOp.andi x v reducesTo_S100000x1024_S_d0_1 h_S_) main_v2 main_c
  let main_v4 : FVec F S2000x1024 .f32 := Host.absf main_arg2
  let main_cst_0 : FVec F S_ .f32 := constant S_ .f32 0x7F800000#32
  let main_v5 : FVec F S2000x1024 .f32 := broadcastInDim S2000x1024 ![] bcast_S_S2000x1024 main_cst_0
  let main_v6 : IVec S2000x1024 1 := cmpf .olt main_v4 main_v5
  let main_c_1 : IVec S_ 1 := constantI S_ 1 1#1
  let main_v7 : IVec S_ 1 := (fun x v => Host.reduce IntOp.andi x v reducesTo_S2000x1024_S_d0_1 h_S_) main_v6 main_c_1
  let main_v8 : IVec S_ 1 := andi main_v3 main_v7
  let main_v9 : IVec S1024x1 32 := (extractStridedSlice S1024x1 ![0, 0] · slices_S1024x3_S1024x1_0_0) main_arg0
  let main_v10 : IVec S1024 32 := shapeCast S1024 main_v9 shapeCasts_S1024x1_S1024
  let main_c_2 : IVec S_ 32 := constantI S_ 32 4294867296#32
  let main_v11 : IVec S1024 32 := broadcastInDim S1024 ![] bcast_S_S1024 main_c_2
  let main_v12 : IVec S1024 1 := cmpi .sge main_v10 main_v11
  let main_v13 : IVec S1024x1 32 := (extractStridedSlice S1024x1 ![0, 0] · slices_S1024x3_S1024x1_0_0) main_arg0
  let main_v14 : IVec S1024 32 := shapeCast S1024 main_v13 shapeCasts_S1024x1_S1024
  let main_c_3 : IVec S_ 32 := constantI S_ 32 100000#32
  let main_v15 : IVec S1024 32 := broadcastInDim S1024 ![] bcast_S_S1024 main_c_3
  let main_v16 : IVec S1024 1 := cmpi .slt main_v14 main_v15
  let main_v17 : IVec S1024 1 := andi main_v12 main_v16
  fn_part1 (F := F) main_arg0 main_v8 main_v17
-- ==== Kernel.lean ====
abbrev S1024x3 : Shape := ⟨2, ![1024, 3]⟩
abbrev S100000x1024 : Shape := ⟨2, ![100000, 1024]⟩
abbrev S2000x1024 : Shape := ⟨2, ![2000, 1024]⟩
abbrev S1024x1 : Shape := ⟨2, ![1024, 1]⟩
abbrev S1024 : Shape := ⟨1, ![1024]⟩
abbrev S_ : Shape := ⟨0, ![]⟩
abbrev S1 : Shape := ⟨1, ![1]⟩
abbrev S1x1 : Shape := ⟨2, ![1, 1]⟩
abbrev S1024x1024 : Shape := ⟨2, ![1024, 1024]⟩
abbrev S1024x512 : Shape := ⟨2, ![1024, 512]⟩
abbrev S1024x100000 : Shape := ⟨2, ![1024, 100000]⟩
abbrev S2048x1024 : Shape := ⟨2, ![2048, 1024]⟩
abbrev S1024x2048 : Shape := ⟨2, ![1024, 2048]⟩
abbrev S256x1024 : Shape := ⟨2, ![256, 1024]⟩
abbrev S1024x256 : Shape := ⟨2, ![1024, 256]⟩

abbrev nBuf : Space → Nat
  | .hbm => 66
  | .vmem => 5
  | .smem => 0
  | _ => 0

abbrev bufTy : (tb : Table) → Fin (tcTables nBuf tb) → BufTy
  | .hbm, ⟨0, _⟩ => ⟨S1024x3, .i32⟩
  | .hbm, ⟨1, _⟩ => ⟨S100000x1024, .f32⟩
  | .hbm, ⟨2, _⟩ => ⟨S2000x1024, .f32⟩
  | .hbm, ⟨3, _⟩ => ⟨S1024x1, .i32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024x1, .i32⟩
  | .hbm, ⟨13, _⟩ => ⟨S1, .i32⟩
  | .hbm, ⟨14, _⟩ => ⟨S_, .i32⟩
  | .hbm, ⟨15, _⟩ => ⟨S1024x1, .i32⟩
  | .hbm, ⟨16, _⟩ => ⟨S1024x1, .i1⟩
  | .hbm, ⟨17, _⟩ => ⟨S1x1, .i32⟩
  | .hbm, ⟨18, _⟩ => ⟨S1024x1, .i32⟩
  | .hbm, ⟨19, _⟩ => ⟨S1024x1, .i1⟩
  | .hbm, ⟨20, _⟩ => ⟨S1024x1, .i1⟩
  | .hbm, ⟨21, _⟩ => ⟨S_, .i1⟩
  | .hbm, ⟨22, _⟩ => ⟨S1024, .i1⟩
  | .hbm, ⟨23, _⟩ => ⟨S1024x1024, .f32⟩
  | .hbm, ⟨24, _⟩ => ⟨S1024x1024, .i1⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x1, .i32⟩
  | .hbm, ⟨29, _⟩ => ⟨S1024, .i32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S1024x1, .i32⟩
  | .hbm, ⟨38, _⟩ => ⟨S1, .i32⟩
  | .hbm, ⟨39, _⟩ => ⟨S_, .i32⟩
  | .hbm, ⟨40, _⟩ => ⟨S1024x1, .i32⟩
  | .hbm, ⟨41, _⟩ => ⟨S1024x1, .i1⟩
  | .hbm, ⟨42, _⟩ => ⟨S1x1, .i32⟩
  | .hbm, ⟨43, _⟩ => ⟨S1024x1, .i32⟩
  | .hbm, ⟨44, _⟩ => ⟨S1024x1, .i1⟩
  | .hbm, ⟨45, _⟩ => ⟨S1024x1, .i1⟩
  | .hbm, ⟨46, _⟩ => ⟨S_, .i1⟩
  | .hbm, ⟨47, _⟩ => ⟨S1024, .i1⟩
  | .hbm, ⟨48, _⟩ => ⟨S1024x1024, .f32⟩
  | .hbm, ⟨49, _⟩ => ⟨S1024x1024, .i1⟩
  | .hbm, ⟨50, _⟩ => ⟨S_, .f32⟩
  | .hbm, ⟨51, _⟩ => ⟨S1024x1024, .f32⟩
  | .hbm, ⟨52, _⟩ => ⟨S1024x1024, .f32⟩
  | .hbm, ⟨53, _⟩ => ⟨S1024x512, .f32⟩
  | .hbm, ⟨54, _⟩ => ⟨S1024x512, .f32⟩
  | .hbm, ⟨55, _⟩ => ⟨S1024x512, .f32⟩
  | .hbm, ⟨56, _⟩ => ⟨S1024x512, .f32⟩
  | .hbm, ⟨57, _⟩ => ⟨S1024x512, .f32⟩
  | .hbm, ⟨58, _⟩ => ⟨S1024x512, .f32⟩
  | .hbm, ⟨59, _⟩ => ⟨S1024x512, .f32⟩
  | .hbm, ⟨60, _⟩ => ⟨S1024x512, .f32⟩
  | .hbm, ⟨61, _⟩ => ⟨S1024x512, .f32⟩
  | .hbm, ⟨62, _⟩ => ⟨S1024x512, .f32⟩
  | .hbm, ⟨63, _⟩ => ⟨S1024x1024, .f32⟩
  | .hbm, ⟨64, _⟩ => ⟨S1024x1024, .bf16⟩
  | .hbm, ⟨65, _⟩ => ⟨S1024x100000, .f32⟩
  | .local _ .vmem, ⟨0, _⟩ => ⟨S1024x1024, .bf16⟩
  | .local _ .vmem, ⟨1, _⟩ => ⟨S2048x1024, .f32⟩
  | .local _ .vmem, ⟨2, _⟩ => ⟨S2048x1024, .f32⟩
  | .local _ .vmem, ⟨3, _⟩ => ⟨S1024x2048, .f32⟩
  | .local _ .vmem, ⟨4, _⟩ => ⟨S1024x2048, .f32⟩
  | _, _ => ⟨S1024x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![49], ![false]⟩

def k0_mult1 : BitVec 32 :=
  let c0_i32 : BitVec 32 := 0#32
  let c256_i32 : BitVec 32 := 256#32
  let v2 : BitVec 32 := Scalar.muli c0_i32 c256_i32
  v2
def k0_off1 (c0_i32 : BitVec 32) : Fin 2 → Nat :=
  let c256_i32 : BitVec 32 := 256#32
  let v2 : BitVec 32 := Scalar.muli c0_i32 c256_i32
  let v3 : BitVec 32 := v2
  let v4 : Index := Scalar.indexCast v3
  let c0_1 : Index := 0#32
  ![v4.toNat, 0]
def k0_off2 (c0_i32 : BitVec 32) : Fin 2 → Nat :=
  let c0_2 : Index := 0#32
  let c256_i32 : BitVec 32 := 256#32
  let v2 : BitVec 32 := Scalar.muli c0_i32 c256_i32
  let v3 : BitVec 32 := v2
  let v8 : Index := Scalar.indexCast v3
  ![0, v8.toNat]
def k0_mult2 : BitVec 32 :=
  let c1_i32 : BitVec 32 := 1#32
  let c256_i32_3 : BitVec 32 := 256#32
  let v10 : BitVec 32 := Scalar.muli c1_i32 c256_i32_3
  v10
def k0_mult3 : BitVec 32 :=
  let c2_i32 : BitVec 32 := 2#32
  let c256_i32_7 : BitVec 32 := 256#32
  let v18 : BitVec 32 := Scalar.muli c2_i32 c256_i32_7
  v18
def k0_mult4 : BitVec 32 :=
  let c3_i32 : BitVec 32 := 3#32
  let c256_i32_11 : BitVec 32 := 256#32
  let v26 : BitVec 32 := Scalar.muli c3_i32 c256_i32_11
  v26
def k0_mult5 : BitVec 32 :=
  let c4_i32 : BitVec 32 := 4#32
  let c256_i32_15 : BitVec 32 := 256#32
  let v34 : BitVec 32 := Scalar.muli c4_i32 c256_i32_15
  v34
def k0_mult6 : BitVec 32 :=
  let c5_i32 : BitVec 32 := 5#32
  let c256_i32_19 : BitVec 32 := 256#32
  let v42 : BitVec 32 := Scalar.muli c5_i32 c256_i32_19
  v42
def k0_mult7 : BitVec 32 :=
  let c6_i32 : BitVec 32 := 6#32
  let c256_i32_23 : BitVec 32 := 256#32
  let v50 : BitVec 32 := Scalar.muli c6_i32 c256_i32_23
  v50
def k0_mult8 : BitVec 32 :=
  let c7_i32 : BitVec 32 := 7#32
  let c256_i32_27 : BitVec 32 := 256#32
  let v58 : BitVec 32 := Scalar.muli c7_i32 c256_i32_27
  v58
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S1024x3_S1024x1_0_0 : S1024x3.Slices ![0, 0] S1024x1
  shapeCasts_S1024x1_S1024 : S1024x1.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S1024x1024_0 : S1024.BroadcastsInDim S1024x1024 (![0] : Fin 1 → Fin S1024x1024.rank)
  bcast_S_S1024x1024 : S_.BroadcastsInDim S1024x1024 (![] : Fin 0 → Fin S1024x1024.rank)
  slices_S1024x3_S1024x1_0_1 : S1024x3.Slices ![0, 1] S1024x1
  slices_S1024x1024_S1024x512_0_0 : S1024x1024.Slices ![0, 0] S1024x512
  slices_S1024x1024_S1024x512_0_512 : S1024x1024.Slices ![0, 512] S1024x512
  concatenates_S1024x512_S1024x512_S1024x1024_d1 : Shape.Concatenates [S1024x512, S1024x512] S1024x1024 1
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  h_S256x1024 : 0 < S256x1024.numel
  h_S1024x256 : 0 < S1024x256.numel
  gather_S100000x1024_S1024x1_S1024x1024_1_0_n_n_0_1_11024_wf : GatherDims.WF S100000x1024 S1024x1 S1024x1024 [1] [0] [] [0] [] 1 ![1, 1024]
  gather_S2000x1024_S1024x1_S1024x1024_1_0_n_n_0_1_11024_wf : GatherDims.WF S2000x1024 S1024x1 S1024x1024 [1] [0] [] [0] [] 1 ![1, 1024]
  dot_S1024x1024_S256x1024_S1024x256_1_1_0_0_n_n_wf : DotDims.WF S1024x1024 S256x1024 S1024x256 [1] [1] [0] [0] [] []
  hrank0 : 0 < grid0.rank
  k0_mult1_dvd : 256 ∣ k0_mult1.toNat
  k0_off1_inb : ∀ (r : Fin 8), ∀ a, (k0_off1 (BitVec.ofNat 32 r.val)) a + S256x1024.size a ≤ S2048x1024.size a
  k0_off2_inb : ∀ (r : Fin 8), ∀ a, (k0_off2 (BitVec.ofNat 32 r.val)) a + S1024x256.size a ≤ S1024x2048.size a
  k0_mult2_dvd : 256 ∣ k0_mult2.toNat
  k0_mult3_dvd : 256 ∣ k0_mult3.toNat
  k0_mult4_dvd : 256 ∣ k0_mult4.toNat
  k0_mult5_dvd : 256 ∣ k0_mult5.toNat
  k0_mult6_dvd : 256 ∣ k0_mult6.toNat
  k0_mult7_dvd : 256 ∣ k0_mult7.toNat
  k0_mult8_dvd : 256 ∣ k0_mult8.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .bf16 = 32 ∨ (Rect.block (s := S1024x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x1024.size a < S100000x1024.size a
  hwx0_1 : ∀ i : grid0.Coords, EltTy.bits .f32 = 32 ∨ (Rect.unit (s := S100000x1024) (fun a => cc0_transform_1 i a * S2048x1024.size a) (fun a => (Pipeline.Clip.of (cc0_transform_1 i a) (S2048x1024.size a) (S100000x1024.size a)).extent (S2048x1024.size a)) fun a => Pipeline.Clip.inb (Pipeline.Clip.ok_of (hstart0_1 i a))).WholeWords (EltTy.packing .f32)
  hwxs0_1 : ∀ i : grid0.Coords, EltTy.bits .f32 = 32 ∨ (Rect.unit (s := S2048x1024) (fun _ => 0) (fun a => (Pipeline.Clip.of (cc0_transform_1 i a) (S2048x1024.size a) (S100000x1024.size a)).extent (S2048x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x2048.size a < S1024x100000.size a
  hwx0_2 : ∀ i : grid0.Coords, EltTy.bits .f32 = 32 ∨ (Rect.unit (s := S1024x100000) (fun a => cc0_transform_2 i a * S1024x2048.size a) (fun a => (Pipeline.Clip.of (cc0_transform_2 i a) (S1024x2048.size a) (S1024x100000.size a)).extent (S1024x2048.size a)) fun a => Pipeline.Clip.inb (Pipeline.Clip.ok_of (hstart0_2 i a))).WholeWords (EltTy.packing .f32)
  hwxs0_2 : ∀ i : grid0.Coords, EltTy.bits .f32 = 32 ∨ (Rect.unit (s := S1024x2048) (fun _ => 0) (fun a => (Pipeline.Clip.of (cc0_transform_2 i a) (S1024x2048.size a) (S1024x100000.size a)).extent (S1024x2048.size a)) fun a => (Nat.zero_add _).trans_le (Pipeline.Clip.extent_le (Pipeline.Clip.ok_of (hstart0_2 i a)))).WholeWords (EltTy.packing .f32)

variable [Facts₀]

def gather_S100000x1024_S1024x1_S1024x1024_1_0_n_n_0_1_11024 : GatherDims S100000x1024 S1024x1 S1024x1024 where
  offsetDims := [1]
  collapsedSliceDims := [0]
  operandBatchingDims := []
  startIndicesBatchingDims := []
  startIndexMap := [0]
  indexVectorDim := 1
  sliceSizes := ![1, 1024]
  wf := gather_S100000x1024_S1024x1_S1024x1024_1_0_n_n_0_1_11024_wf
def gather_S2000x1024_S1024x1_S1024x1024_1_0_n_n_0_1_11024 : GatherDims S2000x1024 S1024x1 S1024x1024 where
  offsetDims := [1]
  collapsedSliceDims := [0]
  operandBatchingDims := []
  startIndicesBatchingDims := []
  startIndexMap := [0]
  indexVectorDim := 1
  sliceSizes := ![1, 1024]
  wf := gather_S2000x1024_S1024x1_S1024x1024_1_0_n_n_0_1_11024_wf
def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf

abbrev win0_0 : Pipeline.Window sig grid0 :=
  Pipeline.Window.ofSpec (Memref.whole main_v17) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S2048x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v18) S1024x2048.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x3 : Shape := ⟨2, ![1024, 3]⟩
abbrev S100000x1024 : Shape := ⟨2, ![100000, 1024]⟩
abbrev S2000x1024 : Shape := ⟨2, ![2000, 1024]⟩
abbrev S1024x1 : Shape := ⟨2, ![1024, 1]⟩
abbrev S1024 : Shape := ⟨1, ![1024]⟩
abbrev S_ : Shape := ⟨0, ![]⟩
abbrev S1024x1024 : Shape := ⟨2, ![1024, 1024]⟩
abbrev S1024x512 : Shape := ⟨2, ![1024, 512]⟩
abbrev S100000x512 : Shape := ⟨2, ![100000, 512]⟩
abbrev S1024x100000 : Shape := ⟨2, ![1024, 100000]⟩

abbrev nBuf : Space → Nat
  | .hbm => 40
  | .vmem => 0
  | .smem => 0
  | _ => 0

abbrev bufTy : (tb : Table) → Fin (tcTables nBuf tb) → BufTy
  | .hbm, ⟨0, _⟩ => ⟨S1024x3, .i32⟩
  | .hbm, ⟨1, _⟩ => ⟨S100000x1024, .f32⟩
  | .hbm, ⟨2, _⟩ => ⟨S2000x1024, .f32⟩
  | .hbm, ⟨3, _⟩ => ⟨S1024x1, .i32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024x1, .i32⟩
  | .hbm, ⟨13, _⟩ => ⟨S1024x1024, .f32⟩
  | .hbm, ⟨14, _⟩ => ⟨S1024x1, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S1024, .i32⟩
  | .hbm, ⟨23, _⟩ => ⟨S1024x1, .i32⟩
  | .hbm, ⟨24, _⟩ => ⟨S1024x1024, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S1024x512, .f32⟩
  | .hbm, ⟨35, _⟩ => ⟨S100000x512, .f32⟩
  | .hbm, ⟨36, _⟩ => ⟨S100000x512, .f32⟩
  | .hbm, ⟨37, _⟩ => ⟨S1024x100000, .f32⟩
  | .hbm, ⟨38, _⟩ => ⟨S1024x100000, .f32⟩
  | .hbm, ⟨39, _⟩ => ⟨S1024x100000, .f32⟩
  | _, _ => ⟨S1024x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]

class Facts₀ : Prop where
  slices_S1024x3_S1024x1_0_0 : S1024x3.Slices ![0, 0] S1024x1
  shapeCasts_S1024x1_S1024 : S1024x1.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  slices_S1024x3_S1024x1_0_1 : S1024x3.Slices ![0, 1] S1024x1
  slices_S1024x1024_S1024x512_0_0 : S1024x1024.Slices ![0, 0] S1024x512
  slices_S1024x1024_S1024x512_0_512 : S1024x1024.Slices ![0, 512] S1024x512
  slices_S100000x1024_S100000x512_0_0 : S100000x1024.Slices ![0, 0] S100000x512
  slices_S100000x1024_S100000x512_0_512 : S100000x1024.Slices ![0, 512] S100000x512
  gather_S100000x1024_S1024x1_S1024x1024_1_0_n_n_0_1_11024_wf : GatherDims.WF S100000x1024 S1024x1 S1024x1024 [1] [0] [] [0] [] 1 ![1, 1024]
  gather_S2000x1024_S1024x1_S1024x1024_1_0_n_n_0_1_11024_wf : GatherDims.WF S2000x1024 S1024x1 S1024x1024 [1] [0] [] [0] [] 1 ![1, 1024]
  dot_S1024x512_S100000x512_S1024x100000_1_1_0_0_n_n_wf : DotDims.WF S1024x512 S100000x512 S1024x100000 [1] [1] [0] [0] [] []

variable [Facts₀]

def gather_S100000x1024_S1024x1_S1024x1024_1_0_n_n_0_1_11024 : GatherDims S100000x1024 S1024x1 S1024x1024 where
  offsetDims := [1]
  collapsedSliceDims := [0]
  operandBatchingDims := []
  startIndicesBatchingDims := []
  startIndexMap := [0]
  indexVectorDim := 1
  sliceSizes := ![1, 1024]
  wf := gather_S100000x1024_S1024x1_S1024x1024_1_0_n_n_0_1_11024_wf
def gather_S2000x1024_S1024x1_S1024x1024_1_0_n_n_0_1_11024 : GatherDims S2000x1024 S1024x1 S1024x1024 where
  offsetDims := [1]
  collapsedSliceDims := [0]
  operandBatchingDims := []
  startIndicesBatchingDims := []
  startIndexMap := [0]
  indexVectorDim := 1
  sliceSizes := ![1, 1024]
  wf := gather_S2000x1024_S1024x1_S1024x1024_1_0_n_n_0_1_11024_wf
def dot_S1024x512_S100000x512_S1024x100000_1_1_0_0_n_n : DotDims S1024x512 S100000x512 S1024x100000 where
  lhsContracting := [1]
  rhsContracting := [1]
  lhsNonContracting := [0]
  rhsNonContracting := [0]
  lhsBatch := []
  rhsBatch := []
  wf := dot_S1024x512_S100000x512_S1024x100000_1_1_0_0_n_n_wf

class Facts : Prop extends Facts₀ where

variable [Facts]
-- ==== Proof.KernelBody.lean ====
/-
  The kernel body of `Kernel` on whole staging buffers, at any float instance.

  One call of the body reads the resident query block `q` (1024 × 1024) once, and for each of the eight
  chunks j = 0 … 7 reads rows 256·j … 256·j + 255 of the entity tile `e` (2048 × 1024), rounds them to the
  matrix unit's operand format, multiplies `q` by the chunk's transpose into a zero accumulator and stores the
  1024 × 256 product into columns 256·j … 256·j + 255 of the output tile.  The loads of the output tile that
  precede each store are dead.  So the output buffer ends as the eight column bands, each a function of `q`
  and of one band of rows of `e`: `outTile q e`, stated as the stores' pieces, last store first.
-/
import proofs.«428823_j81449759801749_3_alg».proof.Proof.Gen.Kernel.Frame
import proofs.«428823_j81449759801749_3_alg».proof.Proof.Gen.Kernel.Skeleton
import Idealize.ShloMosaic.Lib.Pipeline.FrameBody
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole query block. -/
abbrev rQ : Rect S1024x1024 := Rect.unit (s := S1024x1024) ![0, 0] S1024x1024.size inb_S1024x1024_S1024x1024_0_0
/-- Rows 256·j … 256·j + 255 of the entity tile. -/
abbrev rE (j : Fin 8) : Rect S2048x1024 := Rect.unit (s := S2048x1024) (k0_off1 (BitVec.ofNat 32 j.val)) S256x1024.size (k0_off1_inb j)
/-- Columns 256·j … 256·j + 255 of the output tile. -/
abbrev rO (j : Fin 8) : Rect S1024x2048 := Rect.unit (s := S1024x2048) (k0_off2 (BitVec.ofNat 32 j.val)) S1024x256.size (k0_off2_inb j)

/-- The output tile after the body: the eight stored bands, last store first. -/
def outTile (q : Vec F S1024x1024 .bf16) (e : Vec F S2048x1024 .f32) : Vec F S1024x2048 .f32 :=
  View.canon [⟨rO 7, k0_pay4 (k0_pay5 (View.ld q rQ)) (View.ld e (rE 7))⟩,
    ⟨rO 6, k0_pay3 (k0_pay5 (View.ld q rQ)) (View.ld e (rE 6))⟩,
    ⟨rO 5, k0_pay2 (k0_pay5 (View.ld q rQ)) (View.ld e (rE 5))⟩,
    ⟨rO 4, k0_pay1 (k0_pay5 (View.ld q rQ)) (View.ld e (rE 4))⟩,
    ⟨rO 3, k0_pay9 (View.ld q rQ) (View.ld e (rE 3))⟩,
    ⟨rO 2, k0_pay8 (View.ld q rQ) (View.ld e (rE 2))⟩,
    ⟨rO 1, k0_pay7 (View.ld q rQ) (View.ld e (rE 1))⟩,
    ⟨rO 0, k0_pay6 (View.ld q rQ) (View.ld e (rE 0))⟩]

/-- The eight bands tile the output tile, so every index lies in one of them. -/
theorem bands_cover (p7 p6 p5 p4 p3 p2 p1 p0 : Vec F S1024x256 .f32) (y : S1024x2048.Idx) :
    ∃ pc ∈ ([⟨rO 7, p7⟩, ⟨rO 6, p6⟩, ⟨rO 5, p5⟩, ⟨rO 4, p4⟩, ⟨rO 3, p3⟩, ⟨rO 2, p2⟩, ⟨rO 1, p1⟩, ⟨rO 0, p0⟩] :
      List (View.Piece (Elt F) S1024x2048 .f32)), y ∈ pc.1.set :=
  View.cover_of_tiled [⟨rO 7, p7⟩, ⟨rO 6, p6⟩, ⟨rO 5, p5⟩, ⟨rO 4, p4⟩, ⟨rO 3, p3⟩, ⟨rO 2, p2⟩, ⟨rO 1, p1⟩, ⟨rO 0, p0⟩]
    S1024x256.size (by rfl) y

set_option maxHeartbeats 4000000 in
/-- The body's triple: from the query buffer at `q`, the entity buffer at `e` and the output buffer at anything,
    the body runs to the two inputs as they were and the output buffer at `outTile q e`. -/
theorem sound_kernel (c : Dev nD) (E : Set ℕ) (i : grid0.Coords)
    (arg1 : Memref sig .tc .vmem S1024x1024 .bf16) (harg1 : arg1.IsWhole)
    (arg2 : Memref sig .tc .vmem S2048x1024 .f32) (harg2 : arg2.IsWhole)
    (arg3 : Memref sig .tc .vmem S1024x2048 .f32) (harg3 : arg3.IsWhole)
    (q : Vec F S1024x1024 .bf16) (e : Vec F S2048x1024 .f32) (K : PUnit → sProp 𝕄) :
    iprop(owns (c : Thread nD τ) arg1 fullShare q ∗ owns (c : Thread nD τ) arg2 fullShare e ∗ (∃ d, owns (c : Thread nD τ) arg3 fullShare d)
        ∗ (iprop(owns (c : Thread nD τ) arg1 fullShare q ∗ owns (c : Thread nD τ) arg2 fullShare e
            ∗ owns (c : Thread nD τ) arg3 fullShare (outTile q e)) -∗ K ⟨⟩))
      ⊢ wp frame (wpE (defs₀ (F := F)) Variants.none c none) E (cc0__matmul_kernel i arg1 harg1 arg2 harg2 arg3 harg3) K := by
  simp only [cc0__matmul_kernel_eq_skeleton, k0_part1_eq_skeleton]; unfold cc0__matmul_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (bands_cover _ _ _ _ _ _ _ _)

end Cert.Kernel.Body

end
-- ==== Proof.KernelFrame.lean ====
/-
  The frame of `Kernel`: its run ends, faults nowhere, and leaves the three argument arrays as they were.

  The one pipeline has three windows.  Window 0 is the resident query block (fetched once, never cut): the body
  finds it at its block and leaves it there.  Window 1 is the entity table in blocks of 2048 rows; the last block
  overhangs the table, so only its rows inside the table are named: the body finds the block filled out past the
  table's end with words nothing names, and leaves it as it found it.  Window 2 is the output in blocks of 2048
  columns.  A chunk's matrix product depends on the whole chunk of entity rows, the unnamed ones included, so what
  the body leaves in the output buffer is not named at all: the window is forgotten.  The frame claim reads none of
  it: the first and third argument arrays are staged by no window, and the second is an input's array, which the
  pipeline only reads.
-/
import proofs.«428823_j81449759801749_3_alg».proof.Proof.KernelBody
import Idealize.ShloMosaic.Lib.Pipeline.Frame

set_option maxRecDepth 16384

noncomputable section

namespace Cert.Kernel.FrameRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output window (2) is forgotten: nothing of what the body leaves in it is named. -/
def forgets0 : Fin 3 → Bool := fun w => w.val == 2

/-- The proof data on core `c`: the arrays as the region finds them; after the body at point `t` the query buffer
    at its block, the entity buffer at its block's rows inside the table filled out with the zero word (the body
    obligation of this cut window states only the rows inside the table), the output buffer unnamed; the invariant
    the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, h⟩ => Pipeline.Dat.unnamed (cfg := cfg0) ⟨2, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in the query buffer: the block it found. -/
theorem after0_0 (c : Dev nD) (t : Fin cfg0.N) : (dats m 0 c).after 0 t = iblk m c 0 t := by dsimp only [dats]
/-- What the body leaves in the entity buffer, on the rows inside the table: the block it found. -/
theorem after0_1 (c : Dev nD) (t : Fin cfg0.N) :
    (dats m 0 c).after 1 t = win0_1.fill (grid0.coords t) (fun _ => Scalar.ofBits .f32 0#32) (iblk m c 1 t) := by
  dsimp only [dats]

/-- The query buffer holds its block at every point, fetched there or not. -/
theorem before0_0 (c : Dev nD) (t : Fin cfg0.N) (d) : (dats m 0 c).before 0 t d = iblk m c 0 t :=
  before0_0_of m (dats m 0 c) (A_eq m c 0) (after0_0 m c) t d

/-- The entity buffer is fetched at every point: it holds the block's rows inside the table, and `d` past the
    table's end. -/
theorem before0_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]

/-! ## The body obligation, at a generic point -/

/-- What the body is called with at point `t`: the invariant, what the core owes, the query buffer at its block,
    the entity buffer just fetched, the output buffer at anything, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- and what it returns: the same, the entity buffer stated on the rows inside the table only, the output buffer at
    anything. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ (∃ X, owns (c : Thread nD τ) (st0_2 t) fullShare X))

/-- The body at any point: the two input buffers pass through the body's triple unchanged, the output buffer comes
    back at the triple's tile, which is then left unnamed; the entity buffer's rows inside the table are the
    block's rows whatever filled it out (cutting a filled block gives the block back). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩, ⟨%d2, H2⟩⟩
  iapply (Body.sound_kernel (F := F) c Set.univ (grid0.coords t) _ _ _ _ _ _ (iblk m c 0 t)
    (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1; rw [Window.cut_fill]; iexact H1
  · iexists _; iexact H2

/-- The library's body obligation, at every point, the output window forgotten. -/
theorem body_obligation (c : Dev nD) :
    BodyObligationLoose (dats (F := F) m 0 c) (defs₀ (F := F)) Variants.none () Set.univ forgets0 := fun t => by
  rw [bigSep_W0, bigSep_W0]
  exact sound_body m c t

/-! ## The run and the frame -/

set_option backward.isDefEq.respectTransparency.types false in
/-- Every weakly fair execution of @main terminates, and every final state has each input window's array at its
    entry contents, nothing stated of the forgotten output, and every other unscoped buffer at its region-entry
    contents. -/
theorem run_main : θ_run defs (onTc (τ := τ) (main (F := F))) (s₀ m ρ)
    (Pipeline.RDat.FramePost (cfgs 0) (fun c => (dats m 0 c).toRForget forgets0) (V m)) :=
  Pipeline.RDat.θ_run_frame cfgs (0 : Fin 1) launch0 defs₀ Variants.none (fun c => (dats m 0 c).toRForget forgets0) m ρ main
    (hbody := fun c => (body_obligation m c).toRForget)
    (hshare := fun c => ((dats m 0 c).toRForget forgets0).share_full fun _ => rfl)
    (howed := fun _ _ => rfl) (V := V m) (hmain := hmain m Variants.none) (hA := A_eq m) (hΦ := fun _ _ => rfl)

/-- Every weakly fair execution of @main ends without a fault with the three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
      ((Pipeline.RDat.FramePost.arr_in h c 1 rfl).trans ((A_eq m c 1).trans (V_main_arg1 m c))),
      ((h c).2 main_arg2 (Pipeline.mem_restRefs_of main_arg2 (by decide) (by decide))).trans (V_main_arg2 m c)⟩)
    (run_main m ρ)

end Cert.Kernel.FrameRun

end
-- ==== Proof.KernelIdealBody.lean ====
/-
  The kernel body of `KernelIdeal` on whole staging buffers, at any float instance.

  One call of the body reads the resident query block `q` (1024 × 1024) once, and for each of the eight
  chunks j = 0 … 7 reads rows 256·j … 256·j + 255 of the entity tile `e` (2048 × 1024), rounds them to the
  matrix unit's operand format, multiplies `q` by the chunk's transpose into a zero accumulator and stores the
  1024 × 256 product into columns 256·j … 256·j + 255 of the output tile.  The loads of the output tile that
  precede each store are dead.  So the output buffer ends as the eight column bands, each a function of `q`
  and of one band of rows of `e`: `outTile q e`, stated as the stores' pieces, last store first.
-/
import proofs.«428823_j81449759801749_3_alg».proof.Proof.Gen.KernelIdeal.Frame
import proofs.«428823_j81449759801749_3_alg».proof.Proof.Gen.KernelIdeal.Skeleton
import Idealize.ShloMosaic.Lib.Pipeline.FrameBody
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole query block. -/
abbrev rQ : Rect S1024x1024 := Rect.unit (s := S1024x1024) ![0, 0] S1024x1024.size inb_S1024x1024_S1024x1024_0_0
/-- Rows 256·j … 256·j + 255 of the entity tile. -/
abbrev rE (j : Fin 8) : Rect S2048x1024 := Rect.unit (s := S2048x1024) (k0_off1 (BitVec.ofNat 32 j.val)) S256x1024.size (k0_off1_inb j)
/-- Columns 256·j … 256·j + 255 of the output tile. -/
abbrev rO (j : Fin 8) : Rect S1024x2048 := Rect.unit (s := S1024x2048) (k0_off2 (BitVec.ofNat 32 j.val)) S1024x256.size (k0_off2_inb j)

/-- The output tile after the body: the eight stored bands, last store first. -/
def outTile (q : Vec F S1024x1024 .bf16) (e : Vec F S2048x1024 .f32) : Vec F S1024x2048 .f32 :=
  View.canon [⟨rO 7, k0_pay4 (k0_pay5 (View.ld q rQ)) (View.ld e (rE 7))⟩,
    ⟨rO 6, k0_pay3 (k0_pay5 (View.ld q rQ)) (View.ld e (rE 6))⟩,
    ⟨rO 5, k0_pay2 (k0_pay5 (View.ld q rQ)) (View.ld e (rE 5))⟩,
    ⟨rO 4, k0_pay1 (k0_pay5 (View.ld q rQ)) (View.ld e (rE 4))⟩,
    ⟨rO 3, k0_pay9 (View.ld q rQ) (View.ld e (rE 3))⟩,
    ⟨rO 2, k0_pay8 (View.ld q rQ) (View.ld e (rE 2))⟩,
    ⟨rO 1, k0_pay7 (View.ld q rQ) (View.ld e (rE 1))⟩,
    ⟨rO 0, k0_pay6 (View.ld q rQ) (View.ld e (rE 0))⟩]

/-- The eight bands tile the output tile, so every index lies in one of them. -/
theorem bands_cover (p7 p6 p5 p4 p3 p2 p1 p0 : Vec F S1024x256 .f32) (y : S1024x2048.Idx) :
    ∃ pc ∈ ([⟨rO 7, p7⟩, ⟨rO 6, p6⟩, ⟨rO 5, p5⟩, ⟨rO 4, p4⟩, ⟨rO 3, p3⟩, ⟨rO 2, p2⟩, ⟨rO 1, p1⟩, ⟨rO 0, p0⟩] :
      List (View.Piece (Elt F) S1024x2048 .f32)), y ∈ pc.1.set :=
  View.cover_of_tiled [⟨rO 7, p7⟩, ⟨rO 6, p6⟩, ⟨rO 5, p5⟩, ⟨rO 4, p4⟩, ⟨rO 3, p3⟩, ⟨rO 2, p2⟩, ⟨rO 1, p1⟩, ⟨rO 0, p0⟩]
    S1024x256.size (by rfl) y

set_option maxHeartbeats 4000000 in
/-- The body's triple: from the query buffer at `q`, the entity buffer at `e` and the output buffer at anything,
    the body runs to the two inputs as they were and the output buffer at `outTile q e`. -/
theorem sound_kernel (c : Dev nD) (E : Set ℕ) (i : grid0.Coords)
    (arg1 : Memref sig .tc .vmem S1024x1024 .bf16) (harg1 : arg1.IsWhole)
    (arg2 : Memref sig .tc .vmem S2048x1024 .f32) (harg2 : arg2.IsWhole)
    (arg3 : Memref sig .tc .vmem S1024x2048 .f32) (harg3 : arg3.IsWhole)
    (q : Vec F S1024x1024 .bf16) (e : Vec F S2048x1024 .f32) (K : PUnit → sProp 𝕄) :
    iprop(owns (c : Thread nD τ) arg1 fullShare q ∗ owns (c : Thread nD τ) arg2 fullShare e ∗ (∃ d, owns (c : Thread nD τ) arg3 fullShare d)
        ∗ (iprop(owns (c : Thread nD τ) arg1 fullShare q ∗ owns (c : Thread nD τ) arg2 fullShare e
            ∗ owns (c : Thread nD τ) arg3 fullShare (outTile q e)) -∗ K ⟨⟩))
      ⊢ wp frame (wpE (defs₀ (F := F)) Variants.none c none) E (cc0__matmul_kernel i arg1 harg1 arg2 harg2 arg3 harg3) K := by
  simp only [cc0__matmul_kernel_eq_skeleton, k0_part1_eq_skeleton]; unfold cc0__matmul_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (bands_cover _ _ _ _ _ _ _ _)

end Cert.KernelIdeal.Body

end
-- ==== Proof.KernelIdealTile.lean ====
/-
  The output tile of one call of the body, index by index, at the exact instance: entry (b, n) is the
  contraction of row b of the query block with row n of the entity tile.
-/
import proofs.«428823_j81449759801749_3_alg».proof.Proof.KernelIdealBody
import Idealize.ShloMosaic.PureOps.Ideal.Laws
import Idealize.ShloMosaic.Lib.ValueIdx
import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

/-! ## The operand indices of the chunk product

The product contracts axis 1 of the query block with axis 1 of the chunk: at output index (p, r) and contraction
position k the left operand is read at (p, k) and the right operand at (r, k). -/

/-- The left operand's row is the output's row. -/
theorem lhs_chunk_0 (i : S1024x256.Idx) (c : dot_S1024x1024_S256x1024_S1024x256_1_1_0_0_n_n.contr.Idx) :
    (dot_S1024x1024_S256x1024_S1024x256_1_1_0_0_n_n.lhsIdx i c 0).val = (i 0).val := by
  unfold DotDims.lhsIdx
  rw [dif_neg (show ¬(0 : Fin S1024x1024.rank) ∈ dot_S1024x1024_S256x1024_S1024x256_1_1_0_0_n_n.lhsBatch by decide), dif_pos (show (0 : Fin S1024x1024.rank) ∈ dot_S1024x1024_S256x1024_S1024x256_1_1_0_0_n_n.lhsNonContracting by decide)]
  rfl
/-- The left operand's column is the contraction position. -/
theorem lhs_chunk_1 (i : S1024x256.Idx) (c : dot_S1024x1024_S256x1024_S1024x256_1_1_0_0_n_n.contr.Idx) :
    (dot_S1024x1024_S256x1024_S1024x256_1_1_0_0_n_n.lhsIdx i c 1).val = (c ⟨0, by decide⟩).val :=
  dot_S1024x1024_S256x1024_S1024x256_1_1_0_0_n_n.lhsIdx_val_of_single rfl i c
/-- The right operand's row is the output's column. -/
theorem rhs_chunk_0 (i : S1024x256.Idx) (c : dot_S1024x1024_S256x1024_S1024x256_1_1_0_0_n_n.contr.Idx) :
    (dot_S1024x1024_S256x1024_S1024x256_1_1_0_0_n_n.rhsIdx i c 0).val = (i 1).val := by
  unfold DotDims.rhsIdx
  rw [dif_neg (show ¬(0 : Fin S256x1024.rank) ∈ dot_S1024x1024_S256x1024_S1024x256_1_1_0_0_n_n.rhsBatch by decide), dif_pos (show (0 : Fin S256x1024.rank) ∈ dot_S1024x1024_S256x1024_S1024x256_1_1_0_0_n_n.rhsNonContracting by decide)]
  rfl
/-- The right operand's column is the contraction position. -/
theorem rhs_chunk_1 (i : S1024x256.Idx) (c : dot_S1024x1024_S256x1024_S1024x256_1_1_0_0_n_n.contr.Idx) :
    (dot_S1024x1024_S256x1024_S1024x256_1_1_0_0_n_n.rhsIdx i c 1).val = (c ⟨0, by decide⟩).val :=
  dot_S1024x1024_S256x1024_S1024x256_1_1_0_0_n_n.rhsIdx_val_of_single rfl i c

/-- One chunk's product into the zero accumulator, at local index (p, r): Σ_k a[p, k] · v[r, k]. The cast of the
    query block to its own shape and the rounding of the chunk to the operand format change no value here. -/
theorem chunk_apply (a : Vec Ideal S1024x1024 .bf16) (v : Vec Ideal S256x1024 .f32) (p : Fin 1024) (r : Fin 256) :
    matmul dot_S1024x1024_S256x1024_S1024x256_1_1_0_0_n_n none (k0_pay5 a) (truncf .bf16 v bitsLt_bf16_f32)
        (constant (F := Ideal) S1024x256 .f32 0x00000000#32) (ix2 p r)
      = ∑ k : Fin 1024, a (ix2 p k) * v (ix2 r k) := by
  unfold k0_pay5
  rw [shapeCast_self]
  simp only [matmul]
  rw [Ideal.matmul_constant_zero_apply, ← Equiv.sum_comp (ValueIdx.contrEquiv1 dot_S1024x1024_S256x1024_S1024x256_1_1_0_0_n_n 1024 rfl rfl).symm]
  refine Finset.sum_congr rfl fun k _ => ?_
  have hk := ValueIdx.contrEquiv1_symm_val dot_S1024x1024_S256x1024_S1024x256_1_1_0_0_n_n 1024 rfl rfl k
  have el : dot_S1024x1024_S256x1024_S1024x256_1_1_0_0_n_n.lhsIdx (ix2 p r) ((ValueIdx.contrEquiv1 dot_S1024x1024_S256x1024_S1024x256_1_1_0_0_n_n 1024 rfl rfl).symm k) = ix2 p k := funext fun d => Fin.ext (by
    match d with
    | ⟨0, _⟩ => exact lhs_chunk_0 _ _
    | ⟨1, _⟩ => exact (lhs_chunk_1 _ _).trans hk)
  have er : dot_S1024x1024_S256x1024_S1024x256_1_1_0_0_n_n.rhsIdx (ix2 p r) ((ValueIdx.contrEquiv1 dot_S1024x1024_S256x1024_S1024x256_1_1_0_0_n_n 1024 rfl rfl).symm k) = ix2 r k := funext fun d => Fin.ext (by
    match d with
    | ⟨0, _⟩ => exact rhs_chunk_0 _ _
    | ⟨1, _⟩ => exact (rhs_chunk_1 _ _).trans hk)
  rw [el, er]
  rfl

/-! ## The tile as one function of its index

Every stored band is the restriction of ONE function of the tile index: entry (y₀, y₁) is the contraction of row
y₀ of the query block with row y₁ of the entity tile. -/

/-- Entry y of the tile: Σ_k q[y₀, k] · e[y₁, k]. -/
def tileFn (q : Vec Ideal S1024x1024 .bf16) (e : Vec Ideal S2048x1024 .f32) (y : S1024x2048.Idx) : EReal :=
  ∑ k : Fin 1024, q (ix2 (⟨(y 0).val, idx2_lt0 y⟩ : Fin 1024) k) * e (ix2 (⟨(y 1).val, idx2_lt1 y⟩ : Fin 2048) k)

/-- Band j (columns 256·j … 256·j + 255), at its local index (p, r): the chunk product of the whole query block with
    rows 256·j … 256·j + 255 of the entity tile is the tile function at (p, 256·j + r). The band's column offset and
    the chunk's row offset are the same number. -/
theorem band_apply (q : Vec Ideal S1024x1024 .bf16) (e : Vec Ideal S2048x1024 .f32) (j : Fin 8) (p : Fin 1024) (r : Fin 256) :
    matmul dot_S1024x1024_S256x1024_S1024x256_1_1_0_0_n_n none (k0_pay5 (View.ld q Body.rQ)) (truncf .bf16 (View.ld e (Body.rE j)) bitsLt_bf16_f32)
        (constant (F := Ideal) S1024x256 .f32 0x00000000#32) (ix2 p r)
      = tileFn q e ((Body.rO j).emb (ix2 p r)) := by
  rw [chunk_apply]
  unfold tileFn
  refine Finset.sum_congr rfl fun k _ => ?_
  have eq : Body.rQ.idx (ix2 p k) = ix2 (⟨(((Body.rO j).emb (ix2 p r)) 0).val, idx2_lt0 _⟩ : Fin 1024) k :=
    funext fun d => Fin.ext (by
      match d with
      | ⟨0, _⟩ => show 0 + 1 * p.val = 0 + 1 * p.val; rfl
      | ⟨1, _⟩ => show 0 + 1 * k.val = k.val; omega)
  have ee : (Body.rE j).idx (ix2 r k) = ix2 (⟨(((Body.rO j).emb (ix2 p r)) 1).val, idx2_lt1 _⟩ : Fin 2048) k :=
    funext fun d => Fin.ext (by
      match d with
      | ⟨0, _⟩ => rfl
      | ⟨1, _⟩ => show 0 + 1 * k.val = k.val; omega)
  show q (Body.rQ.idx (ix2 p k)) * e ((Body.rE j).idx (ix2 r k)) = _
  rw [eq, ee]

/-- The same over a whole local index of band j. -/
theorem band_eq (q : Vec Ideal S1024x1024 .bf16) (e : Vec Ideal S2048x1024 .f32) (j : Fin 8) (x : S1024x256.Idx) :
    matmul dot_S1024x1024_S256x1024_S1024x256_1_1_0_0_n_n none (k0_pay5 (View.ld q Body.rQ)) (truncf .bf16 (View.ld e (Body.rE j)) bitsLt_bf16_f32)
        (constant (F := Ideal) S1024x256 .f32 0x00000000#32) x
      = tileFn q e ((Body.rO j).emb x) := by
  obtain ⟨p, r, rfl⟩ : ∃ (p : Fin 1024) (r : Fin 256), x = ix2 p r := ⟨x 0, x 1, eq_ix2 x⟩
  exact band_apply q e j p r

/-- Entry (b, n) of the output tile is Σ_k q[b, k] · e[n, k]. -/
theorem outTile_apply (q : Vec Ideal S1024x1024 .bf16) (e : Vec Ideal S2048x1024 .f32) (b : Fin 1024) (n : Fin 2048) :
    Body.outTile (F := Ideal) q e (ix2 b n) = ∑ k : Fin 1024, q (ix2 b k) * e (ix2 n k) := by
  unfold Body.outTile
  refine (View.canon_apply_of_pieces (tileFn q e) _ ?_ (ix2 b n) (Body.bands_cover _ _ _ _ _ _ _ _ _)).trans ?_
  · refine List.forall_mem_cons.mpr ⟨fun x => band_eq q e 7 x, List.forall_mem_cons.mpr ⟨fun x => band_eq q e 6 x,
      List.forall_mem_cons.mpr ⟨fun x => band_eq q e 5 x, List.forall_mem_cons.mpr ⟨fun x => band_eq q e 4 x,
      List.forall_mem_cons.mpr ⟨fun x => band_eq q e 3 x, List.forall_mem_cons.mpr ⟨fun x => band_eq q e 2 x,
      List.forall_mem_cons.mpr ⟨fun x => band_eq q e 1 x, List.forall_mem_cons.mpr ⟨fun x => band_eq q e 0 x,
      fun _ h => absurd h List.not_mem_nil⟩⟩⟩⟩⟩⟩⟩⟩
  · rfl

end Cert.KernelIdeal.Tile

end
-- ==== Proof.KernelIdealRun.lean ====
/-
  The run of `KernelIdeal` at the exact instance with every array after the run named.
-/
import proofs.«428823_j81449759801749_3_alg».proof.Proof.KernelIdealTile
import Idealize.ShloMosaic.Lib.Pipeline.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- The entity tile's staging buffer after the fetch at point `t`, with the rows past the table's end (only at the
    last point) set to zero: the proof's choice for rows nothing reads into a kept result. -/
def eTile (c : Dev nD) (t : Fin cfg0.N) : Vec Ideal S2048x1024 .f32 :=
  win0_1.fill (grid0.coords t) (fun _ => (0 : EReal)) (iblk m c 1 t)

/-- The proof data: the arrays as the region finds them; after the body at point `t` the query buffer at the query
    block, the entity buffer at `eTile`, the output buffer at the body's tile of those two. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => eTile m c t
    | ⟨2, _⟩ => Body.outTile (F := Ideal) (iblk m c 0 t) (eTile m c t)
  Φ _ := Pipeline.ΦA spec0 c
  q _ := fullShare
  owed _ := 0

/-- The query array and the entity table as the region finds them, and the result array after the run, each at its
    literal shape and element type (so that entries multiply and add as extended reals). -/
abbrev qArr (c : Dev nD) : Vec Ideal S1024x1024 .bf16 := V m c main_v17
abbrev eArr (c : Dev nD) : Vec Ideal S100000x1024 .f32 := V m c main_arg1
abbrev outArr (c : Dev nD) : Vec Ideal S1024x100000 .f32 := (dats m 0 c).arrAt 2 cfg0.N

theorem A_eq (c : Dev nD) (w : Fin cfg0.W) : (dats m 0 c).A w = V m c (Pipeline.arrRef spec0 w) := by
  dsimp only [dats]

/-! ## What the body leaves and finds, window by window -/

/-- After the body the query buffer holds the query block, -/
theorem after0_0 (c : Dev nD) (t : Fin cfg0.N) : (dats m 0 c).after 0 t = iblk m c 0 t := by dsimp only [dats]
/-- the entity buffer the fetched rows filled out with zeros, -/
theorem after0_1 (c : Dev nD) (t : Fin cfg0.N) : (dats m 0 c).after 1 t = eTile m c t := by dsimp only [dats]
/-- and the output buffer the body's tile of those two. -/
theorem after0_2 (c : Dev nD) (t : Fin cfg0.N) :
    (dats m 0 c).after 2 t = Body.outTile (F := Ideal) (iblk m c 0 t) (eTile m c t) := by dsimp only [dats]

/-- The query block is fetched once and never overwritten: at every point its buffer holds it. -/
theorem before0_0 (c : Dev nD) (t : Fin cfg0.N) (d) : (dats m 0 c).before 0 t d = iblk m c 0 t :=
  before0_0_of m (dats m 0 c) (A_eq m c 0) (after0_0 m c) t d

/-- The entity tile is fetched at every point: its buffer holds the table's rows of the block that lie inside the
    table, and on the rows past the table's end (only at the last point) whatever it held, `d`. -/
theorem before0_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]

/-! ## The rows past the table's end reach no kept column

Output column `n` of a tile is the contraction of the query rows with entity row `n` alone. The write-back keeps
the columns below the output block's cut, which is the entity block's cut: the rows the fetch filled. So whatever
the entity buffer holds past the cut, the kept part of the output tile is the same. -/

/-- The two clipped windows cut alike at every grid point: the output block keeps as many columns as the entity
    block keeps rows, and the entity block keeps all of its 1024 columns. -/
theorem xsize_rel : ∀ i : grid0.Coords, win0_2.xsize i 1 = win0_1.xsize i 0 ∧ win0_1.xsize i 1 = 1024 ∧ win0_2.xsize i 0 = 1024 := by
  decide +kernel

/-- A row of the filled entity tile below the cut is the fetched block's row, whatever filled the rest. -/
theorem fill_row (i : grid0.Coords) (d0 d1 : Vec Ideal S2048x1024 .f32) (g : (win0_1.xblock i).Idx → EReal)
    (n : Fin 2048) (hn : n.val < win0_1.xsize i 0) (k : Fin 1024) :
    win0_1.fill i d1 g (ix2 n k) = win0_1.fill i d0 g (ix2 n k) := by
  have hm : win0_1.moved i (ix2 n k) = true := (win0_1.moved_iff i (ix2 n k)).mpr fun a => by
    match a with
    | ⟨0, _⟩ => exact hn
    | ⟨1, _⟩ => exact lt_of_lt_of_eq k.isLt (xsize_rel i).2.1.symm
  unfold Window.fill; rw [dif_pos hm, dif_pos hm]

/-- THE KEY FACT: the kept part of the output tile does not depend on what fills the entity tile past the cut. -/
theorem cut_outTile_fill (i : grid0.Coords) (q : Vec Ideal S1024x1024 .bf16) (d0 d1 : Vec Ideal S2048x1024 .f32)
    (g : (win0_1.xblock i).Idx → EReal) :
    win0_2.cut i (Body.outTile (F := Ideal) q (win0_1.fill i d1 g))
      = win0_2.cut i (Body.outTile (F := Ideal) q (win0_1.fill i d0 g)) := by
  funext j
  have hb : (j 0).val < 1024 := lt_of_lt_of_eq (j 0).isLt (xsize_rel i).2.2
  have hn : (j 1).val < 2048 := lt_of_lt_of_le (j 1).isLt (win0_2.xsize_le i 1)
  have hn' : (j 1).val < win0_1.xsize i 0 := lt_of_lt_of_eq (j 1).isLt (xsize_rel i).1
  have hj : win0_2.xinj i j = ix2 (⟨(j 0).val, hb⟩ : Fin 1024) (⟨(j 1).val, hn⟩ : Fin 2048) := by
    funext a
    match a with
    | ⟨0, _⟩ => rfl
    | ⟨1, _⟩ => rfl
  show Body.outTile (F := Ideal) q (win0_1.fill i d1 g) (win0_2.xinj i j)
    = Body.outTile (F := Ideal) q (win0_1.fill i d0 g) (win0_2.xinj i j)
  rw [hj, Tile.outTile_apply, Tile.outTile_apply]
  exact Finset.sum_congr rfl fun k _ => by rw [fill_row i d0 d1 g ⟨(j 1).val, hn⟩ hn' k]

/-! ## The body obligation -/

/-- What the body is called with at point `t`: the invariant, what the core owes, and each window's current buffer
    at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns: the query buffer at the query block; the entity and the output buffer stated on the part their
    transfers move only (both windows are cut at the last point), the rest at some contents. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ (∃ d, owns (c : Thread nD τ) (st0_2 t) fullShare
        (win0_2.fill (grid0.coords t) d (win0_2.cut (grid0.coords t) ((dats m 0 c).after 2 t)))))

/-- The body at any point. The query buffer holds the query block and the entity buffer the fetched rows filled out
    with some `d1`, so the body's triple applies and leaves the output buffer at the tile of those two. The entity
    buffer's moved part is the fetched rows, which are `eTile`'s; the output buffer's moved part is by the key fact
    the moved part of the tile computed from `eTile`, whatever `d1` was. The invariant and what the core owes pass
    through unread. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (Body.sound_kernel c Set.univ _ _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  -- the fetched rows are `eTile`'s moved part
  have hx : win0_1.cut (grid0.coords t) (eTile m c t) = iblk m c 1 t := win0_1.cut_fill _ _ _
  -- the tile's moved part is the same from `d1` as from the zeros of `eTile`
  have hcut : win0_2.cut (grid0.coords t) (Body.outTile (F := Ideal) (iblk m c 0 t) (win0_1.fill (grid0.coords t) d1 (iblk m c 1 t)))
      = win0_2.cut (grid0.coords t) (Body.outTile (F := Ideal) (iblk m c 0 t) (eTile m c t)) :=
    cut_outTile_fill (grid0.coords t) (iblk m c 0 t) (fun _ => (0 : EReal)) d1 (iblk m c 1 t)
  isplitl [H1]
  · iexists d1
    rw [hx]; iexact H1
  · iexists Body.outTile (F := Ideal) (iblk m c 0 t) (win0_1.fill (grid0.coords t) d1 (iblk m c 1 t))
    rw [win0_2.fill_congr_cut (grid0.coords t) hcut]; iexact H2

/-- The body obligation at every point: no point is idle, the query window is stated exactly and the entity and
    output windows on their moved parts. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main ends without a fault, each array of the pipeline at what the proof data
    computes and every other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.KernelIdeal.Run

end
-- ==== Proof.KernelIdealFinal.lean ====
/-
  The result array after the run of `KernelIdeal`, index by index.

  Every grid point writes back the part of its output tile that lies inside the result array: the tile of point `t`
  holds, at (b, n), the contraction of row b of the query array with row n of the entity tile, and for n among the
  rows inside the table that row is the table's row 2048·t + n. The blocks' parts inside the array — columns
  2048·t … 2048·t + min 2048 (100000 − 2048·t) − 1, all 1024 rows — cover the array, so the array ends holding
  Σ_k Q[b, k] · E[n, k] at every (b, n).
-/
import proofs.«428823_j81449759801749_3_alg».proof.Proof.KernelIdealRun

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ)

/-- The printed index maps and cuts, decided over the grid: the query window sits at block (0, 0); the entity window
    at block (t, 0), its rows cut to those inside the table; the output window at block (0, t), its columns cut
    likewise. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_1.xsize (grid0.coords t) (0 : Fin 2) = min 2048 (100000 - 2048 * t.val)
    ∧ win0_1.xsize (grid0.coords t) (1 : Fin 2) = 1024
    ∧ win0_2.xsize (grid0.coords t) (0 : Fin 2) = 1024
    ∧ win0_2.xsize (grid0.coords t) (1 : Fin 2) = min 2048 (100000 - 2048 * t.val) :=
  (by decide +kernel : ∀ t : Fin grid0.N, _)

/-- The result as one function of the arrays: entry (b, n) is Σ_k Q[b, k] · E[n, k]. -/
def G (c : Dev nD) : Vec Ideal S1024x100000 .f32 :=
  fun i => ∑ k : Fin 1024, Run.qArr m c (ix2 (i 0) k) * Run.eArr m c (ix2 (i 1) k)

/-- What the body leaves in the output buffer at point `t`: the tile of the query block and the entity tile. -/
theorem after2 (c : Dev nD) (t : Fin cfg0.N) :
    (Run.dats m 0 c).after 2 t = Body.outTile (F := Ideal) (iblk m c 0 t) (Run.eTile m c t) := by
  dsimp only [Run.dats]

/-- The query window's block at any point is the whole query array: entry (b, k) of the block is entry (b, k) of
    the array (block index (0, 0), block size the array's). -/
theorem qblk_apply (c : Dev nD) (t : Fin cfg0.N) (b k : Fin 1024) :
    iblk m c 0 t (ix2 b k) = Run.qArr m c (ix2 b k) := by
  obtain ⟨e00, e01, -⟩ := idx_facts t
  show V m c main_v17 (((cfg0.win 0).blk t).view.emb (ix2 b k)) = V m c main_v17 (ix2 b k)
  refine congrArg (V m c main_v17) (Shape.idx_ext₂ ?_ ?_)
  · show win0_0.index t (0 : Fin 2) * 1024 + 1 * b.val = b.val
    omega
  · show win0_0.index t (1 : Fin 2) * 1024 + 1 * k.val = k.val
    omega

/-- The index (n, k) of the part of the entity window's block that the fetch at point `t` moves. -/
def eIdx (t : Fin cfg0.N) (n k : ℕ) (hn : n < win0_1.xsize (grid0.coords t) (0 : Fin 2))
    (hk : k < win0_1.xsize (grid0.coords t) (1 : Fin 2)) : (win0_1.xblock (grid0.coords t)).Idx :=
  fun a => match a with | ⟨0, _⟩ => ⟨n, hn⟩ | ⟨1, _⟩ => ⟨k, hk⟩

/-- Row n of the entity tile at point `t`, for n among the rows inside the table, is the table's row 2048·t + n:
    the fetch moved it there (block index (t, 0), block size 2048 × 1024). -/
theorem etile_apply (c : Dev nD) (t : Fin cfg0.N) (n : Fin 2048) (k : Fin 1024)
    (hn : n.val < min 2048 (100000 - 2048 * t.val)) :
    Run.eTile m c t (ix2 n k) = Run.eArr m c (ix2 (⟨2048 * t.val + n.val, by omega⟩ : Fin 100000) k) := by
  obtain ⟨-, -, e10, e11, -, -, x10, x11, -⟩ := idx_facts t
  have h0 : n.val < win0_1.xsize (grid0.coords t) (0 : Fin 2) := by rw [x10]; exact hn
  have h1 : k.val < win0_1.xsize (grid0.coords t) (1 : Fin 2) := by rw [x11]; exact k.isLt
  have hx : ix2 n k = win0_1.xinj (grid0.coords t) (eIdx t n.val k.val h0 h1) := by
    funext a
    match a with
    | ⟨0, _⟩ => rfl
    | ⟨1, _⟩ => rfl
  unfold Run.eTile
  refine (congrArg _ hx).trans ((win0_1.fill_xinj _ _ _ _).trans ?_)
  show V m c main_arg1 (((cfg0.win 1).blk t).view.emb (eIdx t n.val k.val h0 h1)) = V m c main_arg1 (ix2 _ k)
  refine congrArg (V m c main_arg1) (Shape.idx_ext₂ ?_ ?_)
  · show win0_1.index t (0 : Fin 2) * 2048 + 1 * n.val = 2048 * t.val + n.val
    omega
  · show win0_1.index t (1 : Fin 2) * 1024 + 1 * k.val = k.val
    omega

/-- What point `t` writes back is its block of `G`: entry (b, n) of the cut output tile is the contraction of row b
    of the query block, the query array's row b, with row n of the entity tile, which for n among the rows inside
    the table is the table's row 2048·t + n; and the output block's entry (b, n) sits in the result array at
    (b, 2048·t + n). -/
theorem flushed_eq (c : Dev nD) (t : Fin cfg0.N) :
    (Run.dats m 0 c).flushed 2 t = ((cfg0.win 2).blk t).view.read (Elt Ideal) (G m c) := by
  obtain ⟨e00, e01, e10, e11, e20, e21, x10, x11, x20, x21⟩ := idx_facts t
  funext j
  have hj0 : (j 0).val < win0_2.xsize (grid0.coords t) (0 : Fin 2) := (j 0).isLt
  have hj1 : (j 1).val < win0_2.xsize (grid0.coords t) (1 : Fin 2) := (j 1).isLt
  rw [x20] at hj0
  rw [x21] at hj1
  have hn : (j 1).val < 2048 := by omega
  -- the cut block's index (b, n) as an index of the whole tile
  have hx : (cfg0.win 2).xinj (grid0.coords t) j = ix2 (⟨(j 0).val, hj0⟩ : Fin 1024) (⟨(j 1).val, hn⟩ : Fin 2048) := by
    funext a
    match a with
    | ⟨0, _⟩ => rfl
    | ⟨1, _⟩ => rfl
  show (cfg0.win 2).cut (grid0.coords t) ((Run.dats m 0 c).after 2 t) j = G m c (((cfg0.win 2).blk t).view.emb j)
  rw [after2]
  show Body.outTile (F := Ideal) (iblk m c 0 t) (Run.eTile m c t) ((cfg0.win 2).xinj (grid0.coords t) j) = _
  refine (congrArg _ hx).trans ((Tile.outTile_apply _ _ _ _).trans ?_)
  unfold G
  refine Finset.sum_congr rfl fun k _ => ?_
  -- where the output block's entry (b, n) sits in the result array: block index (0, t), block size 1024 × 2048
  have c0 : (⟨(j 0).val, hj0⟩ : Fin 1024) = ((cfg0.win 2).blk t).view.emb j (0 : Fin 2) :=
    Fin.ext (by show (j 0).val = win0_2.index t (0 : Fin 2) * 1024 + 1 * (j 0).val; omega)
  have c1 : (⟨2048 * t.val + (j 1).val, by omega⟩ : Fin 100000) = ((cfg0.win 2).blk t).view.emb j (1 : Fin 2) :=
    Fin.ext (by show 2048 * t.val + (j 1).val = win0_2.index t (1 : Fin 2) * 2048 + 1 * (j 1).val; omega)
  rw [qblk_apply, etile_apply m c t _ k hj1, c0, c1]

/-- An index of the result array is in point `t`'s block iff each coordinate is in the block's range on its axis,
    the range cut at the array's end. -/
theorem mem_blk (t : Fin cfg0.N) (i : S1024x100000.Idx) :
    i ∈ ((cfg0.win 2).blk t).view.set ↔ ∀ a : Fin 2, win0_2.index t a * S1024x2048.size a ≤ (i a).val
      ∧ (i a).val < win0_2.index t a * S1024x2048.size a + win0_2.xsize (grid0.coords t) a := by
  show i ∈ ((View.whole main_v18).slice (win0_2.rect t)).set ↔ _
  rw [View.set_slice_whole, Rect.mem_set_unit]
  exact Iff.rfl

/-- Every index (b, col) of the result array lies in the block of the point col / 2048: its columns are
    2048·t … 2048·t + min 2048 (100000 − 2048·t) − 1 and its rows all 1024. -/
theorem cover (i : S1024x100000.Idx) :
    ∃ t : Fin cfg0.N, (cfg0.win 2).flush t = true ∧ i ∈ ((cfg0.win 2).blk t).view.set := by
  have hi0 : (i 0).val < 1024 := idx2_lt0 i
  have hi1 : (i 1).val < 100000 := idx2_lt1 i
  obtain ⟨t, ht⟩ : ∃ t : Fin cfg0.N, t.val = (i 1).val / 2048 :=
    ⟨⟨(i 1).val / 2048, by show (i 1).val / 2048 < 49; omega⟩, rfl⟩
  obtain ⟨-, -, -, -, e20, e21, -, -, x20, x21⟩ := idx_facts t
  refine ⟨t, flush0_2 t, ?_⟩
  rw [mem_blk]
  intro a
  match a with
  | ⟨0, _⟩ =>
    show win0_2.index t (0 : Fin 2) * 1024 ≤ (i 0).val
      ∧ (i 0).val < win0_2.index t (0 : Fin 2) * 1024 + win0_2.xsize (grid0.coords t) (0 : Fin 2)
    rw [e20, x20]; omega
  | ⟨1, _⟩ =>
    show win0_2.index t (1 : Fin 2) * 2048 ≤ (i 1).val
      ∧ (i 1).val < win0_2.index t (1 : Fin 2) * 2048 + win0_2.xsize (grid0.coords t) (1 : Fin 2)
    rw [e21, x21]; omega

/-- The result array after the run is `G`: every point writes back its block of `G`, and the blocks cover the
    array. -/
theorem final_eq (c : Dev nD) : Run.outArr m c = G m c :=
  (Run.dats m 0 c).arrAt_eq_of_cover 2 (G m c) (fun t _ => flushed_eq m c t) cover

/-- Entry (b, n) of the result array after the run is Σ_k Q[b, k] · E[n, k], `Q` the query array and `E` the
    entity table as the region finds them. -/
theorem final_apply (c : Dev nD) (b : Fin 1024) (n : Fin 100000) :
    Run.outArr m c (ix2 b n) = ∑ k : Fin 1024, Run.qArr m c (ix2 b k) * Run.eArr m c (ix2 n k) := by
  rw [final_eq]
  rfl

end Cert.KernelIdeal.Final

end
-- ==== Proof.Spec.lean ====
/-
  The score both programs compute, over the extended reals.

  `L` and `R` are the gathered head-entity and relation rows (1024 queries × 1024 columns: columns 0…511 the
  real parts, 512…1023 the imaginary parts), `E` the entity table (100000 × 1024, the same column layout).
  The complex product of a query's two rows has real part  Lre·Rre − Lim·Rim  and imaginary part
  Lre·Rim + Lim·Rre  (`qRe`, `qIm`).  The score of query `b` against entity `n` is
      Σ_r qRe b r · E n r  +  Σ_r qIm b r · E n (512 + r)        (`scoreSplit`: two half-width contractions)
  which is one full-width contraction  Σ_k query b k · E n k  of the concatenated row `query = [qRe | qIm]`
  (`scoreFull`).  The two agree because a sum over 1024 = 512 + 512 indices splits into its two halves; this
  uses only that addition of extended reals is commutative and associative, so no finiteness is needed.
-/
import Idealize.ShloMosaic.PureOps.Ideal
import Mathlib.Algebra.BigOperators.Fin
import Mathlib.Data.EReal.Basic

noncomputable section

namespace Cert.Spec

open Idealize.ShloMosaic

/-- Column `r` of the real half. -/
abbrev lo (r : Fin 512) : Fin 1024 := ⟨r.val, by omega⟩
/-- Column `r` of the imaginary half. -/
abbrev hi (r : Fin 512) : Fin 1024 := ⟨r.val + 512, by omega⟩

/-- Real part of the complex product of query `b`'s two rows, component `r`. -/
def qRe (L R : Fin 1024 → Fin 1024 → EReal) (b : Fin 1024) (r : Fin 512) : EReal :=
  L b (lo r) * R b (lo r) - L b (hi r) * R b (hi r)

/-- Imaginary part, component `r`. -/
def qIm (L R : Fin 1024 → Fin 1024 → EReal) (b : Fin 1024) (r : Fin 512) : EReal :=
  L b (lo r) * R b (hi r) + L b (hi r) * R b (lo r)

/-- The concatenated query row: real parts in columns 0…511, imaginary parts in columns 512…1023. -/
def query (L R : Fin 1024 → Fin 1024 → EReal) (b k : Fin 1024) : EReal :=
  if h : k.val < 512 then qRe L R b ⟨k.val, h⟩ else qIm L R b ⟨k.val - 512, by omega⟩

/-- One full-width contraction of the concatenated query row with an entity row. -/
def scoreFull (L R : Fin 1024 → Fin 1024 → EReal) (E : Fin 100000 → Fin 1024 → EReal) (b : Fin 1024) (n : Fin 100000) : EReal :=
  ∑ k : Fin 1024, query L R b k * E n k

/-- Two half-width contractions, real against real and imaginary against imaginary, added. -/
def scoreSplit (L R : Fin 1024 → Fin 1024 → EReal) (E : Fin 100000 → Fin 1024 → EReal) (b : Fin 1024) (n : Fin 100000) : EReal :=
  (∑ r : Fin 512, qRe L R b r * E n (lo r)) + ∑ r : Fin 512, qIm L R b r * E n (hi r)

theorem query_lo (L R : Fin 1024 → Fin 1024 → EReal) (b : Fin 1024) (r : Fin 512) : query L R b (lo r) = qRe L R b r := by
  unfold query; rw [dif_pos (show (lo r).val < 512 from r.isLt)]

theorem query_hi (L R : Fin 1024 → Fin 1024 → EReal) (b : Fin 1024) (r : Fin 512) : query L R b (hi r) = qIm L R b r := by
  unfold query
  rw [dif_neg (show ¬(hi r).val < 512 from by show ¬(r.val + 512 < 512); omega)]
  congr 1

/-- The full-width contraction is the sum of the two half-width ones. -/
theorem scoreFull_eq_scoreSplit (L R : Fin 1024 → Fin 1024 → EReal) (E : Fin 100000 → Fin 1024 → EReal) (b : Fin 1024) (n : Fin 100000) :
    scoreFull L R E b n = scoreSplit L R E b n := by
  unfold scoreFull scoreSplit
  refine (Fin.sum_univ_add (a := 512) (b := 512) (fun k : Fin (512 + 512) => query L R b k * E n k)).trans ?_
  refine congrArg₂ (· + ·) ?_ ?_
  · refine Finset.sum_congr rfl fun r _ => ?_
    rw [show (Fin.castAdd 512 r : Fin (512 + 512)) = lo r from Fin.ext rfl, query_lo]
  · refine Finset.sum_congr rfl fun r _ => ?_
    rw [show (Fin.natAdd 512 r : Fin (512 + 512)) = hi r from Fin.ext (by show 512 + r.val = r.val + 512; omega), query_hi]

end Cert.Spec

end
-- ==== Proof.KernelIdealHost.lean ====
/-
  The query array the region of `KernelIdeal` is launched on, index by index, under the precondition.

  Each index column of `x` is wrapped the way a negative array index is wrapped (i < 0 ↦ i + N) and the rows are
  gathered; the kernel's take then keeps a gathered row only if its wrapped index lies in 0 … N − 1 and fills the
  row with a not-a-number word otherwise.  The precondition says  −N ≤ i < N  for both columns, so every wrapped
  index is in range, every row is kept, and the rows are the plain gathers `lhsRows`, `relRows`.  The query array
  is then the complex product of the two rows, real parts then imaginary parts (`Spec.query`); the change of
  float format before the launch is the identity at the exact instance.
-/
import proofs.«428823_j81449759801749_3_alg».proof.Defs
import proofs.«428823_j81449759801749_3_alg».proof.Proof.Gen.KernelIdeal.Frame
import proofs.«428823_j81449759801749_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.Lib.ReduceAll
import Idealize.ShloMosaic.Lib.WordArith

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo
open Idealize.ShloMosaic.ValueIdx

/-- Column 0 of `x` (head entities), wrapped against the entity table's 100000 rows, as a gather's index column. -/
def entIdx (x0 : (⟨S1024x3, .i32⟩ : BufTy).Contents (Elt Ideal)) : (⟨S1024x1, .i32⟩ : BufTy).Contents (Elt Ideal) :=
  broadcastInDim S1024x1 ![0] bcast_S1024_S1024x1_0
    (select (cmpi .slt (shapeCast _ (extractStridedSlice S1024x1 ![0, 0] x0 slices_S1024x3_S1024x1_0_0) shapeCasts_S1024x1_S1024) (broadcastInDim S1024 ![] bcast_S_S1024 (constantI S_ 32 0#32)))
      (addi (shapeCast _ (extractStridedSlice S1024x1 ![0, 0] x0 slices_S1024x3_S1024x1_0_0) shapeCasts_S1024x1_S1024) (broadcastInDim S1024 ![] bcast_S_S1024 (constantI S_ 32 100000#32)))
      (shapeCast _ (extractStridedSlice S1024x1 ![0, 0] x0 slices_S1024x3_S1024x1_0_0) shapeCasts_S1024x1_S1024))

/-- Column 1 of `x` (relations), wrapped against the relation table's 2000 rows. -/
def relIdx (x0 : (⟨S1024x3, .i32⟩ : BufTy).Contents (Elt Ideal)) : (⟨S1024x1, .i32⟩ : BufTy).Contents (Elt Ideal) :=
  broadcastInDim S1024x1 ![0] bcast_S1024_S1024x1_0
    (select (cmpi .slt (shapeCast _ (extractStridedSlice S1024x1 ![0, 1] x0 slices_S1024x3_S1024x1_0_1) shapeCasts_S1024x1_S1024) (broadcastInDim S1024 ![] bcast_S_S1024 (constantI S_ 32 0#32)))
      (addi (shapeCast _ (extractStridedSlice S1024x1 ![0, 1] x0 slices_S1024x3_S1024x1_0_1) shapeCasts_S1024x1_S1024) (broadcastInDim S1024 ![] bcast_S_S1024 (constantI S_ 32 2000#32)))
      (shapeCast _ (extractStridedSlice S1024x1 ![0, 1] x0 slices_S1024x3_S1024x1_0_1) shapeCasts_S1024x1_S1024))

/-- The gathered head-entity rows. -/
def lhsRows (x0 : (⟨S1024x3, .i32⟩ : BufTy).Contents (Elt Ideal)) (x1 : (⟨S100000x1024, .f32⟩ : BufTy).Contents (Elt Ideal)) : (⟨S1024x1024, .f32⟩ : BufTy).Contents (Elt Ideal) :=
  Host.gather gather_S100000x1024_S1024x1_S1024x1024_1_0_n_n_0_1_11024 x1 (entIdx x0)

/-- The gathered relation rows. -/
def relRows (x0 : (⟨S1024x3, .i32⟩ : BufTy).Contents (Elt Ideal)) (x2 : (⟨S2000x1024, .f32⟩ : BufTy).Contents (Elt Ideal)) : (⟨S1024x1024, .f32⟩ : BufTy).Contents (Elt Ideal) :=
  Host.gather gather_S2000x1024_S1024x1_S1024x1024_1_0_n_n_0_1_11024 x2 (relIdx x0)

/-! ## Signed words: a wrapped index is in range -/

/-- For  −N ≤ x < N  (signed), the wrapped word — `x + N` when `x` is negative, else `x` — lies in 0 … N − 1.
    The sum does not wrap: for a negative `x ≥ −N` it is `x + N` as integers, between 0 and N − 1. -/
theorem wrapped_in_range (x lo nn hi : BitVec 32) (N : ℤ) (hN : N < 2 ^ 30)
    (hlo : lo.toInt = -N) (hnn : nn.toInt = N) (hhi : hi.toInt = N - 1)
    (h0 : IntOp.cmpi .sge x lo = 1#1) (h1 : IntOp.cmpi .slt x nn = 1#1) :
    IntOp.cmpi .sge (Scalar.select (IntOp.cmpi .slt x 0#32) (IntOp.addi x nn) x) 0#32 = 1#1
      ∧ IntOp.cmpi .sle (Scalar.select (IntOp.cmpi .slt x 0#32) (IntOp.addi x nn) x) hi = 1#1 := by
  rw [IntOp.cmpi_sge, hlo] at h0
  rw [IntOp.cmpi_slt, hnn] at h1
  have hz : (0#32 : BitVec 32).toInt = 0 := by decide
  by_cases hneg : x.toInt < 0
  · have hc : IntOp.cmpi .slt x 0#32 = 1#1 := IntOp.cmpi_slt.2 (by rw [hz]; exact hneg)
    rw [hc, select_one]
    have hs : (IntOp.addi x nn).toInt = x.toInt + N := by
      show (x + nn).toInt = _
      rw [WordArith.toInt_add_of_bounds x nn (by rw [hnn]; omega) (by rw [hnn]; omega), hnn]
    rw [IntOp.cmpi_sge, IntOp.cmpi_sle, hs, hz, hhi]
    constructor <;> omega
  · have hc : IntOp.cmpi .slt x 0#32 = 0#1 :=
      eq_zero_of_ne_one fun h => hneg (by have := IntOp.cmpi_slt.1 h; rwa [hz] at this)
    rw [hc, select_zero, IntOp.cmpi_sge, IntOp.cmpi_sle, hz, hhi]
    constructor <;> omega

/-! ## A conjunction of ones is one -/

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_ones f l fun n hn => h n (List.mem_cons_of_mem _ hn)

/-- A reduction by `and` from the constant 1 of an array of ones is 1 at every index of the result. -/
theorem reduce_andi_ones {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  exact foldl_andi_ones x _ fun i _ => hx i

/-! ## The take: wrap, gather, mask -/

/-- A vector of row numbers wrapped against `nn` rows (`nn` added to the negative ones), as a gather's index column. -/
def wrapIdx (nn : BitVec 32) (X : IVec S1024 32) : IVec S1024x1 32 :=
  broadcastInDim S1024x1 ![0] bcast_S1024_S1024x1_0
    (select (cmpi .slt X (broadcastInDim S1024 ![] bcast_S_S1024 (constantI S_ 32 0#32)))
      (addi X (broadcastInDim S1024 ![] bcast_S_S1024 (constantI S_ 32 nn))) X)

/-- What the take keeps of gathered rows `g` for the index column `idx`: row `b` of `g` where  0 ≤ idx[b] ≤ hi,
    the not-a-number word in every column of the other rows. -/
def taken (hi : BitVec 32) (idx : IVec S1024x1 32) (g : FVec Ideal S1024x1024 .f32) : FVec Ideal S1024x1024 .f32 :=
  select (broadcastInDim S1024x1024 ![0] bcast_S1024_S1024x1024_0
      (Host.reduce IntOp.andi
        (andi (cmpi .sge idx (broadcastInDim S1024x1 ![] bcast_S_S1024x1 (constantI S_ 32 0#32)))
          (cmpi .sle idx (broadcastInDim S1024x1 ![0, 1] bcast_S1x1_S1024x1_0_1 (broadcastInDim S1x1 ![1] bcast_S1_S1x1_1 (constantI S1 32 hi)))))
        (constantI S_ 1 1#1) reducesTo_S1024x1_S1024_d1 h_S_))
    g (broadcastInDim S1024x1024 ![] bcast_S_S1024x1024 (constant (F := Ideal) S_ .f32 0x7FC00000#32))

/-- When every row number `X j` satisfies  −N ≤ X j < N,  the take over the wrapped column keeps every gathered row. -/
theorem taken_of_in_range (lo nn hi : BitVec 32) (N : ℤ) (hN : N < 2 ^ 30)
    (hlo : lo.toInt = -N) (hnn : nn.toInt = N) (hhi : hi.toInt = N - 1) (X : IVec S1024 32)
    (hX : ∀ j, IntOp.cmpi .sge (X j) lo = 1#1 ∧ IntOp.cmpi .slt (X j) nn = 1#1)
    (g : FVec Ideal S1024x1024 .f32) : taken hi (wrapIdx nn X) g = g := by
  -- each word of the two-sided comparison is 1: the wrapped index at row i is in range
  have hword : ∀ i : S1024x1.Idx,
      (andi (cmpi .sge (wrapIdx nn X) (broadcastInDim S1024x1 ![] bcast_S_S1024x1 (constantI S_ 32 0#32)))
        (cmpi .sle (wrapIdx nn X) (broadcastInDim S1024x1 ![0, 1] bcast_S1x1_S1024x1_0_1 (broadcastInDim S1x1 ![1] bcast_S1_S1x1_1 (constantI S1 32 hi))))) i = 1#1 := by
    intro i
    obtain ⟨j, hj⟩ : ∃ j : S1024.Idx, wrapIdx nn X i = Scalar.select (IntOp.cmpi .slt (X j) 0#32) (IntOp.addi (X j) nn) (X j) := ⟨_, rfl⟩
    obtain ⟨ha, hb⟩ := wrapped_in_range (X j) lo nn hi N hN hlo hnn hhi (hX j).1 (hX j).2
    show IntOp.andi (IntOp.cmpi .sge (wrapIdx nn X i) 0#32) (IntOp.cmpi .sle (wrapIdx nn X i) hi) = 1#1
    rw [hj, ha, hb]; decide
  funext i
  unfold taken
  rw [select_apply]
  have hm : broadcastInDim S1024x1024 ![0] bcast_S1024_S1024x1024_0
      (Host.reduce IntOp.andi
        (andi (cmpi .sge (wrapIdx nn X) (broadcastInDim S1024x1 ![] bcast_S_S1024x1 (constantI S_ 32 0#32)))
          (cmpi .sle (wrapIdx nn X) (broadcastInDim S1024x1 ![0, 1] bcast_S1x1_S1024x1_0_1 (broadcastInDim S1x1 ![1] bcast_S1_S1x1_1 (constantI S1 32 hi)))))
        (constantI S_ 1 1#1) reducesTo_S1024x1_S1024_d1 h_S_) i = 1#1 :=
    reduce_andi_ones _ _ _ hword _
  rw [hm, select_one]

/-! ## The complex product of two gathered rows, half by half, and the concatenated row -/

/-- Real parts: columns 0 … 511 of the two rows multiplied, less the product of columns 512 … 1023. -/
def reHalf (l r : FVec Ideal S1024x1024 .f32) : FVec Ideal S1024x512 .f32 :=
  subf (mulf (extractStridedSlice S1024x512 ![0, 0] l slices_S1024x1024_S1024x512_0_0) (extractStridedSlice S1024x512 ![0, 0] r slices_S1024x1024_S1024x512_0_0))
    (mulf (extractStridedSlice S1024x512 ![0, 512] l slices_S1024x1024_S1024x512_0_512) (extractStridedSlice S1024x512 ![0, 512] r slices_S1024x1024_S1024x512_0_512))

/-- Imaginary parts: the two cross products added. -/
def imHalf (l r : FVec Ideal S1024x1024 .f32) : FVec Ideal S1024x512 .f32 :=
  addf (mulf (extractStridedSlice S1024x512 ![0, 0] l slices_S1024x1024_S1024x512_0_0) (extractStridedSlice S1024x512 ![0, 512] r slices_S1024x1024_S1024x512_0_512))
    (mulf (extractStridedSlice S1024x512 ![0, 512] l slices_S1024x1024_S1024x512_0_512) (extractStridedSlice S1024x512 ![0, 0] r slices_S1024x1024_S1024x512_0_0))

/-- Two half-width arrays laid side by side along the columns, then the change of float format. -/
def joined (a b : FVec Ideal S1024x512 .f32) : FVec Ideal S1024x1024 .bf16 :=
  truncf .bf16 (concatenate S1024x1024 1 [⟨S1024x512, a⟩, ⟨S1024x512, b⟩] concatenates_S1024x512_S1024x512_S1024x1024_d1) bitsLt_bf16_f32

theorem joined_congr {a a' b b' : FVec Ideal S1024x512 .f32} (ha : a = a') (hb : b = b') : joined a b = joined a' b' := by
  rw [ha, hb]

/-- Entry (b, q) of the real half is `Spec.qRe` of the two rows: the slice from column 0 reads column q, the slice
    from column 512 reads column q + 512. -/
theorem reHalf_apply (l r : FVec Ideal S1024x1024 .f32) (b : Fin 1024) (q : Fin 512) :
    reHalf l r (ix2 b q) = Spec.qRe (fun b k => l (ix2 b k)) (fun b k => r (ix2 b k)) b q := by
  unfold reHalf Spec.qRe
  rw [subf_apply, mulf_apply, mulf_apply,
    slice2_axis1_apply 0 l slices_S1024x1024_S1024x512_0_0 b q (Spec.lo q) (Nat.zero_add _).symm,
    slice2_axis1_apply 0 r slices_S1024x1024_S1024x512_0_0 b q (Spec.lo q) (Nat.zero_add _).symm,
    slice2_axis1_apply 512 l slices_S1024x1024_S1024x512_0_512 b q (Spec.hi q) (Nat.add_comm _ _),
    slice2_axis1_apply 512 r slices_S1024x1024_S1024x512_0_512 b q (Spec.hi q) (Nat.add_comm _ _)]

/-- Entry (b, q) of the imaginary half is `Spec.qIm` of the two rows. -/
theorem imHalf_apply (l r : FVec Ideal S1024x1024 .f32) (b : Fin 1024) (q : Fin 512) :
    imHalf l r (ix2 b q) = Spec.qIm (fun b k => l (ix2 b k)) (fun b k => r (ix2 b k)) b q := by
  unfold imHalf Spec.qIm
  rw [addf_apply, mulf_apply, mulf_apply,
    slice2_axis1_apply 0 l slices_S1024x1024_S1024x512_0_0 b q (Spec.lo q) (Nat.zero_add _).symm,
    slice2_axis1_apply 0 r slices_S1024x1024_S1024x512_0_0 b q (Spec.lo q) (Nat.zero_add _).symm,
    slice2_axis1_apply 512 l slices_S1024x1024_S1024x512_0_512 b q (Spec.hi q) (Nat.add_comm _ _),
    slice2_axis1_apply 512 r slices_S1024x1024_S1024x512_0_512 b q (Spec.hi q) (Nat.add_comm _ _)]

/-- Entry (b, k) of the concatenated row: the real half at column k when k < 512, the imaginary half at column
    k − 512 otherwise; the change of float format is the identity on extended reals. -/
theorem joined_apply (l r : FVec Ideal S1024x1024 .f32) (b k : Fin 1024) :
    joined (reHalf l r) (imHalf l r) (ix2 b k) = Spec.query (fun b k => l (ix2 b k)) (fun b k => r (ix2 b k)) b k := by
  unfold joined Spec.query
  rw [truncf_apply]
  by_cases h : k.val < 512
  · rw [dif_pos h]
    refine (concatenate_pair_apply_left _ _ _ concatenates_S1024x512_S1024x512_S1024x1024_d1 (ix2 b k) rfl (ix2 b ⟨k.val, h⟩)
      (fun a => by match a with | ⟨0, _⟩ => rfl | ⟨1, _⟩ => rfl)).trans ?_
    exact reHalf_apply l r b ⟨k.val, h⟩
  · rw [dif_neg h]
    refine (concatenate_pair_apply_right _ _ _ concatenates_S1024x512_S1024x512_S1024x1024_d1 (ix2 b k) rfl rfl (ix2 b ⟨k.val - 512, by omega⟩)
      (fun a ha => by match a with | ⟨0, _⟩ => rfl | ⟨1, _⟩ => exact absurd rfl ha) (by show (k.val - 512) + 512 = k.val; omega)).trans ?_
    exact imHalf_apply l r b ⟨k.val - 512, by omega⟩

variable [Cert.Pre_finite_inputs.Facts]
variable (m : (ℓ : Loc nD τ sig) → Buf (Elt Ideal) ℓ)

/-! ## The precondition's two integer conjuncts, row by row -/

theorem andi_apply {s : Shape} {w : Nat} (a b : IVec s w) (i : s.Idx) : andi a b i = IntOp.andi (a i) (b i) := rfl

/-- The one column of `x` cut at the offsets `off`, as a vector of 1024 row numbers. -/
abbrev colOf (x0 : (⟨S1024x3, .i32⟩ : BufTy).Contents (Elt Ideal)) (off : Fin 2 → Nat) (h : S1024x3.Slices off S1024x1) : IVec S1024 32 :=
  shapeCast S1024 (extractStridedSlice S1024x1 off x0 h) shapeCasts_S1024x1_S1024

/-- The precondition read back: every head-entity number is in −100000 … 99999 and every relation number in
    −2000 … 1999 (each an `and` over all rows of the two signed comparisons, itself a conjunct of the precondition). -/
theorem pre_cols (hpre : Cert.Pre_KernelIdeal m) (c : Dev nD) :
    (∀ j, IntOp.cmpi .sge (colOf (m ((c.tc : Thread nD τ).loc main_arg0)) ![0, 0] slices_S1024x3_S1024x1_0_0 j) 4294867296#32 = 1#1
        ∧ IntOp.cmpi .slt (colOf (m ((c.tc : Thread nD τ).loc main_arg0)) ![0, 0] slices_S1024x3_S1024x1_0_0 j) 100000#32 = 1#1)
    ∧ (∀ j, IntOp.cmpi .sge (colOf (m ((c.tc : Thread nD τ).loc main_arg0)) ![0, 1] slices_S1024x3_S1024x1_0_1 j) 4294965296#32 = 1#1
        ∧ IntOp.cmpi .slt (colOf (m ((c.tc : Thread nD τ).loc main_arg0)) ![0, 1] slices_S1024x3_S1024x1_0_1 j) 2000#32 = 1#1) := by
  haveI : Subsingleton Cert.Pre_finite_inputs.S_.Idx := ⟨fun a b => funext fun d => d.elim0⟩
  have h := congrFun (hpre c) ix0
  dsimp only [Cert.Pre_finite_inputs.fn, Cert.Pre_finite_inputs.fn_part1] at h
  rw [andi_apply, IntOp.andi_eq_one, andi_apply, IntOp.andi_eq_one] at h
  obtain ⟨⟨-, h3⟩, h4⟩ := h
  exact ⟨fun j => IntOp.andi_eq_one.1 (Host.reduce_andi_all _ _ _ _ _ h3 j),
    fun j => IntOp.andi_eq_one.1 (Host.reduce_andi_all _ _ _ _ _ h4 j)⟩

/-! ## The host operations before the launch, stretch by stretch

Each stretch is read at the one array it computes, over ANY contents `W` of the buffers before it, as a function
of the arrays it reads; the arrays a later stretch still needs are left as they were. -/

local macro "stretch_results" : tactic =>
  `(tactic| (simp only [Gen.hostOps0, Gen.hostOps0_1, Gen.hostOps0_2, Gen.hostOps0_3, Gen.hostOps0_4]; after_results_simp))

section Stretches
variable (W : Valuation τ sig (Elt Ideal))

/-- Column 0 of `x`, as a vector. -/
theorem s0_v1 : (StableHlo.after (Gen.hostOps0 (F := Ideal)) W (Proc.devRef .tc main_v1) : S1024.Idx → BitVec 32)
    = colOf (W (Proc.devRef .tc main_arg0)) ![0, 0] slices_S1024x3_S1024x1_0_0 := by
  stretch_results <;> rfl
theorem s0_arg0 : StableHlo.after (Gen.hostOps0 (F := Ideal)) W (Proc.devRef .tc main_arg0) = W (Proc.devRef .tc main_arg0) := by
  stretch_results <;> rfl
theorem s0_arg1 : StableHlo.after (Gen.hostOps0 (F := Ideal)) W (Proc.devRef .tc main_arg1) = W (Proc.devRef .tc main_arg1) := by
  stretch_results <;> rfl
theorem s0_arg2 : StableHlo.after (Gen.hostOps0 (F := Ideal)) W (Proc.devRef .tc main_arg2) = W (Proc.devRef .tc main_arg2) := by
  stretch_results <;> rfl

/-- The take on the entity table: the wrapped column, the gather, the mask and the fill. -/
theorem s1_v2 : (StableHlo.after (Gen.hostOps0_1 (F := Ideal)) W (Proc.devRef .tc main_v2) : S1024x1024.Idx → EReal)
    = taken 99999#32 (wrapIdx 100000#32 (W (Proc.devRef .tc main_v1)))
        (Host.gather gather_S100000x1024_S1024x1_S1024x1024_1_0_n_n_0_1_11024 (W (Proc.devRef .tc main_arg1)) (wrapIdx 100000#32 (W (Proc.devRef .tc main_v1)))) := by
  stretch_results <;> rfl
theorem s1_arg0 : StableHlo.after (Gen.hostOps0_1 (F := Ideal)) W (Proc.devRef .tc main_arg0) = W (Proc.devRef .tc main_arg0) := by
  stretch_results <;> rfl
theorem s1_arg2 : StableHlo.after (Gen.hostOps0_1 (F := Ideal)) W (Proc.devRef .tc main_arg2) = W (Proc.devRef .tc main_arg2) := by
  stretch_results <;> rfl

/-- Column 1 of `x`, as a vector. -/
theorem s2_v4 : (StableHlo.after (Gen.hostOps0_2 (F := Ideal)) W (Proc.devRef .tc main_v4) : S1024.Idx → BitVec 32)
    = colOf (W (Proc.devRef .tc main_arg0)) ![0, 1] slices_S1024x3_S1024x1_0_1 := by
  stretch_results <;> rfl
theorem s2_v2 : StableHlo.after (Gen.hostOps0_2 (F := Ideal)) W (Proc.devRef .tc main_v2) = W (Proc.devRef .tc main_v2) := by
  stretch_results <;> rfl
theorem s2_arg2 : StableHlo.after (Gen.hostOps0_2 (F := Ideal)) W (Proc.devRef .tc main_arg2) = W (Proc.devRef .tc main_arg2) := by
  stretch_results <;> rfl

/-- The take on the relation table. -/
theorem s3_v5 : (StableHlo.after (Gen.hostOps0_3 (F := Ideal)) W (Proc.devRef .tc main_v5) : S1024x1024.Idx → EReal)
    = taken 1999#32 (wrapIdx 2000#32 (W (Proc.devRef .tc main_v4)))
        (Host.gather gather_S2000x1024_S1024x1_S1024x1024_1_0_n_n_0_1_11024 (W (Proc.devRef .tc main_arg2)) (wrapIdx 2000#32 (W (Proc.devRef .tc main_v4)))) := by
  stretch_results <;> rfl
theorem s3_v2 : StableHlo.after (Gen.hostOps0_3 (F := Ideal)) W (Proc.devRef .tc main_v2) = W (Proc.devRef .tc main_v2) := by
  stretch_results <;> rfl

/-- The complex product of the two taken arrays, its halves side by side, in the launch's float format. -/
theorem s4_v17 : (StableHlo.after (Gen.hostOps0_4 (F := Ideal)) W (Proc.devRef .tc main_v17) : S1024x1024.Idx → EReal)
    = joined (reHalf (W (Proc.devRef .tc main_v2)) (W (Proc.devRef .tc main_v5))) (imHalf (W (Proc.devRef .tc main_v2)) (W (Proc.devRef .tc main_v5))) := by
  stretch_results
  exact joined_congr (by after_results_simp <;> rfl) (by after_results_simp <;> rfl)

end Stretches

/-! ## The query array at the launch -/

/-- The query array the region finds: the five stretches composed, each array read off the launch memory. -/
theorem V_query (c : Dev nD) :
    (V m c main_v17 : S1024x1024.Idx → EReal)
      = joined
          (reHalf (taken 99999#32 (entIdx (m ((c.tc : Thread nD τ).loc main_arg0))) (lhsRows (m ((c.tc : Thread nD τ).loc main_arg0)) (m ((c.tc : Thread nD τ).loc main_arg1))))
            (taken 1999#32 (relIdx (m ((c.tc : Thread nD τ).loc main_arg0))) (relRows (m ((c.tc : Thread nD τ).loc main_arg0)) (m ((c.tc : Thread nD τ).loc main_arg2)))))
          (imHalf (taken 99999#32 (entIdx (m ((c.tc : Thread nD τ).loc main_arg0))) (lhsRows (m ((c.tc : Thread nD τ).loc main_arg0)) (m ((c.tc : Thread nD τ).loc main_arg1))))
            (taken 1999#32 (relIdx (m ((c.tc : Thread nD τ).loc main_arg0))) (relRows (m ((c.tc : Thread nD τ).loc main_arg0)) (m ((c.tc : Thread nD τ).loc main_arg2))))) := by
  dsimp only [Gen.V]
  rw [List.flatten_cons, List.flatten_cons, List.flatten_cons, List.flatten_cons, List.flatten_cons, List.flatten_nil, List.append_nil,
    StableHlo.after_append, StableHlo.after_append, StableHlo.after_append, StableHlo.after_append]
  rw [s4_v17, s3_v5, s3_v2, s2_v4, s2_v2, s2_arg2, s1_v2, s1_arg0, s1_arg2, s0_v1, s0_arg0, s0_arg1, s0_arg2]
  rfl

/-- Under the precondition, entry (b, k) of the query array the region is launched on is the concatenated complex
    product of the gathered rows. -/
theorem query_apply (hpre : Cert.Pre_KernelIdeal m) (c : Dev nD) (b k : Fin 1024) :
    (V m c main_v17 : S1024x1024.Idx → EReal) (ix2 b k)
      = Spec.query (fun b k => lhsRows (m ((c.tc : Thread nD τ).loc main_arg0)) (m ((c.tc : Thread nD τ).loc main_arg1)) (ix2 b k))
          (fun b k => relRows (m ((c.tc : Thread nD τ).loc main_arg0)) (m ((c.tc : Thread nD τ).loc main_arg2)) (ix2 b k)) b k := by
  obtain ⟨hE, hR⟩ := pre_cols m hpre c
  rw [V_query m c,
    show taken 99999#32 (entIdx (m ((c.tc : Thread nD τ).loc main_arg0))) (lhsRows (m ((c.tc : Thread nD τ).loc main_arg0)) (m ((c.tc : Thread nD τ).loc main_arg1)))
        = lhsRows (m ((c.tc : Thread nD τ).loc main_arg0)) (m ((c.tc : Thread nD τ).loc main_arg1)) from
      taken_of_in_range 4294867296#32 100000#32 99999#32 100000 (by decide) (by decide) (by decide) (by decide) _ hE _,
    show taken 1999#32 (relIdx (m ((c.tc : Thread nD τ).loc main_arg0))) (relRows (m ((c.tc : Thread nD τ).loc main_arg0)) (m ((c.tc : Thread nD τ).loc main_arg2)))
        = relRows (m ((c.tc : Thread nD τ).loc main_arg0)) (m ((c.tc : Thread nD τ).loc main_arg2)) from
      taken_of_in_range 4294965296#32 2000#32 1999#32 2000 (by decide) (by decide) (by decide) (by decide) _ hR _]
  exact joined_apply _ _ b k

end Cert.KernelIdeal.HostValue

end
-- ==== Proof.RefValue.lean ====
/-
  The reference's result, index by index, at the exact instance: entry (b, n) is the real-against-real contraction
  plus the imaginary-against-imaginary contraction of the complex product of query b's gathered rows with
  entity n's row (`Spec.scoreSplit`).
-/
import proofs.«428823_j81449759801749_3_alg».proof.Proof.Gen.ReferenceIdeal.Run
import proofs.«428823_j81449759801749_3_alg».proof.Proof.Gen.ReferenceIdeal.Read
import proofs.«428823_j81449759801749_3_alg».proof.Proof.Spec
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem
open Idealize.ShloMosaic.ValueIdx

/-! ### The index maps of the reference's layout steps, at an index given by its coordinates

Each slice step reads its operand at the same row and at column `r` (the real half) or `512 + r` (the imaginary
half); each contraction reads its left operand at (query row, contracted column) and its right operand at
(entity row, contracted column). -/

/-- The left operand of either contraction is read at (query `b`, column `r`). -/
theorem lidx30_ix (b : Fin 1024) (n : Fin 100000) (r : Fin 512) : lidx_main_v30 (ix2 b n) r = ix2 b r :=
  funext fun a => Fin.ext (by match a with | ⟨0, _⟩ => rfl | ⟨1, _⟩ => rfl)
theorem lidx31_ix (b : Fin 1024) (n : Fin 100000) (r : Fin 512) : lidx_main_v31 (ix2 b n) r = ix2 b r :=
  funext fun a => Fin.ext (by match a with | ⟨0, _⟩ => rfl | ⟨1, _⟩ => rfl)
/-- The right operand of either contraction is read at (entity `n`, column `r`). -/
theorem ridx30_ix (b : Fin 1024) (n : Fin 100000) (r : Fin 512) : ridx_main_v30 (ix2 b n) r = ix2 n r :=
  funext fun a => Fin.ext (by match a with | ⟨0, _⟩ => rfl | ⟨1, _⟩ => rfl)
theorem ridx31_ix (b : Fin 1024) (n : Fin 100000) (r : Fin 512) : ridx_main_v31 (ix2 b n) r = ix2 n r :=
  funext fun a => Fin.ext (by match a with | ⟨0, _⟩ => rfl | ⟨1, _⟩ => rfl)

/-- The real half of a gathered row: column `r` of the half is column `r` of the row. -/
theorem idx18_ix (b : Fin 1024) (r : Fin 512) : idx_main_v18 (ix2 b r) = ix2 b (Spec.lo r) :=
  funext fun a => Fin.ext (by match a with | ⟨0, _⟩ => rfl | ⟨1, _⟩ => rfl)
theorem idx20_ix (b : Fin 1024) (r : Fin 512) : idx_main_v20 (ix2 b r) = ix2 b (Spec.lo r) :=
  funext fun a => Fin.ext (by match a with | ⟨0, _⟩ => rfl | ⟨1, _⟩ => rfl)
/-- The imaginary half of a gathered row: column `r` of the half is column `512 + r` of the row. -/
theorem idx19_ix (b : Fin 1024) (r : Fin 512) : idx_main_v19 (ix2 b r) = ix2 b (Spec.hi r) :=
  funext fun a => Fin.ext (by
    match a with
    | ⟨0, _⟩ => rfl
    | ⟨1, _⟩ => show 512 + r.val = r.val + 512; omega)
theorem idx21_ix (b : Fin 1024) (r : Fin 512) : idx_main_v21 (ix2 b r) = ix2 b (Spec.hi r) :=
  funext fun a => Fin.ext (by
    match a with
    | ⟨0, _⟩ => rfl
    | ⟨1, _⟩ => show 512 + r.val = r.val + 512; omega)
/-- The two halves of an entity row, likewise. -/
theorem idx28_ix (n : Fin 100000) (r : Fin 512) : idx_main_v28 (ix2 n r) = ix2 n (Spec.lo r) :=
  funext fun a => Fin.ext (by match a with | ⟨0, _⟩ => rfl | ⟨1, _⟩ => rfl)
theorem idx29_ix (n : Fin 100000) (r : Fin 512) : idx_main_v29 (ix2 n r) = ix2 n (Spec.hi r) :=
  funext fun a => Fin.ext (by
    match a with
    | ⟨0, _⟩ => rfl
    | ⟨1, _⟩ => show 512 + r.val = r.val + 512; omega)

/-- Entry (b, n) of the reference's result is the split score of the gathered rows and the entity table. -/
theorem result_apply (x0 : (⟨S1024x3, .i32⟩ : BufTy).Contents (Elt Ideal)) (x1 : (⟨S100000x1024, .f32⟩ : BufTy).Contents (Elt Ideal))
    (x2 : (⟨S2000x1024, .f32⟩ : BufTy).Contents (Elt Ideal)) (b : Fin 1024) (n : Fin 100000) :
    val_main_v32 (F := Ideal) x0 x1 x2 (ix2 b n)
      = Spec.scoreSplit (fun b k => val_main_v8 (F := Ideal) x0 x1 (ix2 b k)) (fun b k => val_main_v17 (F := Ideal) x0 x2 (ix2 b k))
          (fun n k => x1 (ix2 n k)) b n := by
  -- the result is the sum of the two contractions, each a sum over the 512 columns of a half
  rw [val_main_v32_apply, val_main_v30_apply, val_main_v31_apply, Ideal.addf_def]
  unfold Spec.scoreSplit
  refine congrArg₂ (· + ·) (Finset.sum_congr rfl fun r _ => ?_) (Finset.sum_congr rfl fun r _ => ?_)
  · -- real part of the complex product, against the real half of the entity row
    rw [lidx30_ix, ridx30_ix, val_main_v24_apply, val_main_v22_apply, val_main_v23_apply, val_main_v18_apply, val_main_v19_apply,
      val_main_v20_apply, val_main_v21_apply, val_main_v28_apply, idx18_ix, idx19_ix, idx20_ix, idx21_ix, idx28_ix,
      Ideal.subf_def, Ideal.mulf_def, Ideal.mulf_def]
    rfl
  · -- imaginary part of the complex product, against the imaginary half of the entity row
    rw [lidx31_ix, ridx31_ix, val_main_v27_apply, val_main_v25_apply, val_main_v26_apply, val_main_v18_apply, val_main_v19_apply,
      val_main_v20_apply, val_main_v21_apply, val_main_v29_apply, idx18_ix, idx19_ix, idx20_ix, idx21_ix, idx29_ix,
      Ideal.addf_def, Ideal.mulf_def, Ideal.mulf_def]
    rfl

end Cert.ReferenceIdeal.RefValue

end
-- ==== Proof.lean ====
/-
  `Cert.Claim`: the kernel scores every query against every entity exactly as the reference does.

  Both programs gather, for each of the 1024 queries, a head-entity row and a relation row (a negative index i
  first wrapped to i + N, N the table's row count), and form the complex product of the two rows.  The reference
  contracts the product's real part with the real half of every entity row, the imaginary part with the imaginary
  half, and adds the two (`Spec.scoreSplit`).  The kernel concatenates real and imaginary parts into one 1024-wide query row and contracts
  it with whole entity rows, one tile of 2048 entities per grid point and 256 entities per matrix product
  (`Spec.scoreFull`); the last tile overhangs the table's end by 352 rows, whose products land in output columns
  past the result's end and are never written back.  A 1024-term sum is the sum of its two 512-term halves
  (`Spec.scoreFull_eq_scoreSplit`), so the two results agree entry by entry over the extended reals.

  The precondition, beyond finiteness, is that both index columns lie in the range −N ≤ i < N of indices that wrap
  into the table: outside it the reference's indexing clamps while the kernel's take fills the row with a not-a-number word.
-/
import proofs.«428823_j81449759801749_3_alg».proof.Defs
import proofs.«428823_j81449759801749_3_alg».proof.Proof.Gen.Kernel
import proofs.«428823_j81449759801749_3_alg».proof.Proof.Gen.KernelIdeal
import proofs.«428823_j81449759801749_3_alg».proof.Proof.Gen.ReferenceIdeal
import proofs.«428823_j81449759801749_3_alg».proof.Proof.Gen.Pre_finite_inputs
import proofs.«428823_j81449759801749_3_alg».proof.Proof.KernelFrame
import proofs.«428823_j81449759801749_3_alg».proof.Proof.KernelIdealFinal
import proofs.«428823_j81449759801749_3_alg».proof.Proof.KernelIdealHost
import proofs.«428823_j81449759801749_3_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem
open Idealize.ShloMosaic.ValueIdx

/-- The reference's gathered head-entity rows are the kernel's: the same operations on the same arrays. -/
theorem lhs_agree (x0 : (⟨Cert.KernelIdeal.S1024x3, .i32⟩ : BufTy).Contents (Elt Ideal))
    (x1 : (⟨Cert.KernelIdeal.S100000x1024, .f32⟩ : BufTy).Contents (Elt Ideal)) :
    Cert.ReferenceIdeal.Read.val_main_v8 (F := Ideal) x0 x1 = Cert.KernelIdeal.HostValue.lhsRows x0 x1 := rfl

/-- Likewise the relation rows. -/
theorem rel_agree (x0 : (⟨Cert.KernelIdeal.S1024x3, .i32⟩ : BufTy).Contents (Elt Ideal))
    (x2 : (⟨Cert.KernelIdeal.S2000x1024, .f32⟩ : BufTy).Contents (Elt Ideal)) :
    Cert.ReferenceIdeal.Read.val_main_v17 (F := Ideal) x0 x2 = Cert.KernelIdeal.HostValue.relRows x0 x2 := rfl

/-- The score array both programs end with, as a function of the three argument arrays. -/
def score (x0 : (⟨Cert.KernelIdeal.S1024x3, .i32⟩ : BufTy).Contents (Elt Ideal))
    (x1 : (⟨Cert.KernelIdeal.S100000x1024, .f32⟩ : BufTy).Contents (Elt Ideal))
    (x2 : (⟨Cert.KernelIdeal.S2000x1024, .f32⟩ : BufTy).Contents (Elt Ideal)) : Cert.KernelIdeal.S1024x100000.Idx → EReal :=
  fun i => Spec.scoreSplit (fun b k => Cert.KernelIdeal.HostValue.lhsRows x0 x1 (ix2 b k))
    (fun b k => Cert.KernelIdeal.HostValue.relRows x0 x2 (ix2 b k)) (fun n k => x1 (ix2 n k)) (i 0) (i 1)

section KernelIdealValue

open Cert.KernelIdeal Cert.KernelIdeal.Gen

variable [Cert.KernelIdeal.Facts] [Cert.Pre_finite_inputs.Facts]

/-- The idealized kernel's run: the result array ends at `score` of the arguments, which end unchanged. -/
theorem kernelIdeal_run (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v18)
          = score (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨((h c).1 2).trans ?_,
      ((h c).2 main_arg0 (Pipeline.mem_restRefs_of main_arg0 (by decide) (by decide))).trans (V_main_arg0 m c),
      ((h c).1 1).trans (((Run.dats m 0 c).arrAt_in 1 rfl _).trans ((Run.A_eq m c 1).trans (V_main_arg1 m c))),
      ((h c).2 main_arg2 (Pipeline.mem_restRefs_of main_arg2 (by decide) (by decide))).trans (V_main_arg2 m c)⟩)
    (Run.run_main m ρ)
  funext i
  obtain ⟨b, n, rfl⟩ : ∃ (b : Fin 1024) (n : Fin 100000), i = ix2 b n := ⟨i 0, i 1, eq_ix2 i⟩
  refine (Final.final_apply m c b n).trans ?_
  have hE : Run.eArr m c = (m ((c.tc : Thread nD τ).loc main_arg1) : (⟨S100000x1024, .f32⟩ : BufTy).Contents (Elt Ideal)) := V_main_arg1 m c
  refine (Finset.sum_congr rfl fun k _ => ?_).trans (Spec.scoreFull_eq_scoreSplit _ _
    (fun n k => (m ((c.tc : Thread nD τ).loc main_arg1) : (⟨S100000x1024, .f32⟩ : BufTy).Contents (Elt Ideal)) (ix2 n k)) b n)
  rw [show Run.qArr m c (ix2 b k) = _ from HostValue.query_apply m hpre c b k, hE]

end KernelIdealValue

theorem claim : Cert.Claim := ⟨Cert.Kernel.Gen.facts, Cert.KernelIdeal.Gen.facts, Cert.ReferenceIdeal.Gen.facts, Cert.Pre_finite_inputs.Gen.facts, by
  letI := Cert.Kernel.Gen.facts; letI := Cert.KernelIdeal.Gen.facts; letI := Cert.ReferenceIdeal.Gen.facts; letI := Cert.Pre_finite_inputs.Gen.facts
  refine ⟨fun m ρ _ => Cert.Kernel.FrameRun.frame (F := Bits) m ρ, ?_, ?_, trivial, ?_⟩
  · -- the idealized kernel's frame: its run, the result dropped
    intro m ρ hpre
    exact (θ_run Cert.KernelIdeal.defs _ _).mono (fun _ h c => (h c).2) (kernelIdeal_run m ρ hpre)
  · -- the reference's frame: its run, the result dropped
    intro m ρ _
    exact (θ_run Cert.ReferenceIdeal.defs _ _).mono (fun _ h c => (h c).2) (Cert.ReferenceIdeal.Value.run (F := Ideal) m ρ)
  · -- both end at `score` of the arguments they agree on
    intro m ρ m' ρ' hpre hagree
    refine ⟨fun c => score (m ((c.tc : Thread _ _).loc Cert.KernelIdeal.main_arg0)) (m ((c.tc : Thread _ _).loc Cert.KernelIdeal.main_arg1))
      (m ((c.tc : Thread _ _).loc Cert.KernelIdeal.main_arg2)), kernelIdeal_run m ρ hpre, ?_⟩
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v32_eq, (hagree c).1, (hagree c).2.1, (hagree c).2.2]
    funext i
    obtain ⟨b, n, rfl⟩ : ∃ (b : Fin 1024) (n : Fin 100000), i = ix2 b n := ⟨i 0, i 1, eq_ix2 i⟩
    refine (Cert.ReferenceIdeal.RefValue.result_apply _ _ _ b n).trans ?_
    rw [lhs_agree, rel_agree]
    rfl⟩

end Cert.Proof

end
